-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16x128 : Shape := ⟨3, ![50000, 16, 128]⟩
abbrev S4x128x128 : Shape := ⟨3, ![4, 128, 128]⟩
abbrev S4 : Shape := ⟨1, ![4]⟩
abbrev S_ : Shape := ⟨0, ![]⟩

class Facts : Prop where
  bcast_S_S50000x16x128 : S_.BroadcastsInDim S50000x16x128 (![] : Fin 0 → Fin S50000x16x128.rank)
  reducesTo_S50000x16x128_S_d0_1_2 : S50000x16x128.ReducesTo [0, 1, 2] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4 : S_.BroadcastsInDim S4 (![] : Fin 0 → Fin S4.rank)
  reducesTo_S4_S_d0 : S4.ReducesTo [0] S_

variable [Facts]

def fn {F : FTy → Type} [FloatOps F] (main_arg0 : FVec F S50000x16x128 .f32) (main_arg1 : FVec F S4x128x128 .f32) (main_arg2 : FVec F S4 .f32) : IVec S_ 1 :=
  let main_v0 : FVec F S50000x16x128 .f32 := Host.absf main_arg0
  let main_cst : FVec F S_ .f32 := constant S_ .f32 0x7F800000#32
  let main_v1 : FVec F S50000x16x128 .f32 := broadcastInDim S50000x16x128 ![] bcast_S_S50000x16x128 main_cst
  let main_v2 : IVec S50000x16x128 1 := cmpf .olt main_v0 main_v1
  let main_c : IVec S_ 1 := constantI S_ 1 1#1
  let main_v3 : IVec S_ 1 := (fun x v => Host.reduce IntOp.andi x v reducesTo_S50000x16x128_S_d0_1_2 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S50000x16x128 : Shape := ⟨3, ![50000, 16, 128]⟩
abbrev S4x128x128 : Shape := ⟨3, ![4, 128, 128]⟩
abbrev S4 : Shape := ⟨1, ![4]⟩
abbrev S4x1x1 : Shape := ⟨3, ![4, 1, 1]⟩
abbrev S512x16x128 : Shape := ⟨3, ![512, 16, 128]⟩
abbrev S512x1x128 : Shape := ⟨3, ![512, 1, 128]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 8
  | .vmem => 5
  | .smem => 0
  | _ => 0

abbrev bufTy : (tb : Table) → Fin (tcTables nBuf tb) → BufTy
  | .hbm, ⟨0, _⟩ => ⟨S50000x16x128, .f32⟩
  | .hbm, ⟨1, _⟩ => ⟨S4x128x128, .f32⟩
  | .hbm, ⟨2, _⟩ => ⟨S4, .f32⟩
  | .hbm, ⟨3, _⟩ => ⟨S4x1x1, .f32⟩
  | .hbm, ⟨4, _⟩ => ⟨S4x128x128, .f32⟩
  | .hbm, ⟨5, _⟩ => ⟨S4x128x128, .f32⟩
  | .hbm, ⟨6, _⟩ => ⟨S4x128x128, .bf16⟩
  | .hbm, ⟨7, _⟩ => ⟨S50000x16x128, .f32⟩
  | .local _ .vmem, ⟨0, _⟩ => ⟨S512x16x128, .f32⟩
  | .local _ .vmem, ⟨1, _⟩ => ⟨S512x16x128, .f32⟩
  | .local _ .vmem, ⟨2, _⟩ => ⟨S4x128x128, .bf16⟩
  | .local _ .vmem, ⟨3, _⟩ => ⟨S512x16x128, .f32⟩
  | .local _ .vmem, ⟨4, _⟩ => ⟨S512x16x128, .f32⟩
  | _, _ => ⟨S50000x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![98], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S4_S4x1x1_0 : S4.BroadcastsInDim S4x1x1 (![0] : Fin 1 → Fin S4x1x1.rank)
  bcast_S4x1x1_S4x128x128_0_1_2 : S4x1x1.BroadcastsInDim S4x128x128 (![0, 1, 2] : Fin 3 → Fin S4x128x128.rank)
  bitsLt_bf16_f32 : FTy.bits .bf16 < FTy.bits .f32
  inb_S512x16x128_S512x1x128_0_0_0 : ∀ a, (![0, 0, 0] : Fin 3 → Nat) a + S512x1x128.size a ≤ S512x16x128.size a
  h_S512x1x128 : 0 < S512x1x128.numel
  shapeCasts_S512x1x128_S512x128 : S512x1x128.ShapeCasts S512x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  shapeCasts_S512x128_S512x1x128 : S512x128.ShapeCasts S512x1x128
  inb_S512x16x128_S512x1x128_0_1_0 : ∀ a, (![0, 1, 0] : Fin 3 → Nat) a + S512x1x128.size a ≤ S512x16x128.size a
  inb_S4x128x128_S1x128x128_1_0_0 : ∀ a, (![1, 0, 0] : Fin 3 → Nat) a + S1x128x128.size a ≤ S4x128x128.size a
  inb_S512x16x128_S512x1x128_0_2_0 : ∀ a, (![0, 2, 0] : Fin 3 → Nat) a + S512x1x128.size a ≤ S512x16x128.size a
  inb_S512x16x128_S512x1x128_0_3_0 : ∀ a, (![0, 3, 0] : Fin 3 → Nat) a + S512x1x128.size a ≤ S512x16x128.size a
  inb_S512x16x128_S512x1x128_0_4_0 : ∀ a, (![0, 4, 0] : Fin 3 → Nat) a + S512x1x128.size a ≤ S512x16x128.size a
  inb_S4x128x128_S1x128x128_2_0_0 : ∀ a, (![2, 0, 0] : Fin 3 → Nat) a + S1x128x128.size a ≤ S4x128x128.size a
  inb_S512x16x128_S512x1x128_0_5_0 : ∀ a, (![0, 5, 0] : Fin 3 → Nat) a + S512x1x128.size a ≤ S512x16x128.size a
  inb_S512x16x128_S512x1x128_0_6_0 : ∀ a, (![0, 6, 0] : Fin 3 → Nat) a + S512x1x128.size a ≤ S512x16x128.size a
  inb_S512x16x128_S512x1x128_0_7_0 : ∀ a, (![0, 7, 0] : Fin 3 → Nat) a + S512x1x128.size a ≤ S512x16x128.size a
  inb_S512x16x128_S512x1x128_0_8_0 : ∀ a, (![0, 8, 0] : Fin 3 → Nat) a + S512x1x128.size a ≤ S512x16x128.size a
  inb_S512x16x128_S512x1x128_0_9_0 : ∀ a, (![0, 9, 0] : Fin 3 → Nat) a + S512x1x128.size a ≤ S512x16x128.size a
  inb_S4x128x128_S1x128x128_3_0_0 : ∀ a, (![3, 0, 0] : Fin 3 → Nat) a + S1x128x128.size a ≤ S4x128x128.size a
  inb_S512x16x128_S512x1x128_0_10_0 : ∀ a, (![0, 10, 0] : Fin 3 → Nat) a + S512x1x128.size a ≤ S512x16x128.size a
  inb_S512x16x128_S512x1x128_0_11_0 : ∀ a, (![0, 11, 0] : Fin 3 → Nat) a + S512x1x128.size a ≤ S512x16x128.size a
  inb_S512x16x128_S512x1x128_0_12_0 : ∀ a, (![0, 12, 0] : Fin 3 → Nat) a + S512x1x128.size a ≤ S512x16x128.size a
  inb_S512x16x128_S512x1x128_0_13_0 : ∀ a, (![0, 13, 0] : Fin 3 → Nat) a + S512x1x128.size a ≤ S512x16x128.size a
  inb_S512x16x128_S512x1x128_0_14_0 : ∀ a, (![0, 14, 0] : Fin 3 → Nat) a + S512x1x128.size a ≤ S512x16x128.size a
  inb_S512x16x128_S512x1x128_0_15_0 : ∀ a, (![0, 15, 0] : Fin 3 → Nat) a + S512x1x128.size a ≤ S512x16x128.size a
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x16x128.size a < S50000x16x128.size a
  hwx0_0 : ∀ i : grid0.Coords, EltTy.bits .f32 = 32 ∨ (Rect.unit (s := S50000x16x128) (fun a => cc0_transform_0 i a * S512x16x128.size a) (fun a => (Pipeline.Clip.of (cc0_transform_0 i a) (S512x16x128.size a) (S50000x16x128.size a)).extent (S512x16x128.size a)) fun a => Pipeline.Clip.inb (Pipeline.Clip.ok_of (hstart0_0 i a))).WholeWords (EltTy.packing .f32)
  hwxs0_0 : ∀ i : grid0.Coords, EltTy.bits .f32 = 32 ∨ (Rect.unit (s := S512x16x128) (fun _ => 0) (fun a => (Pipeline.Clip.of (cc0_transform_0 i a) (S512x16x128.size a) (S50000x16x128.size a)).extent (S512x16x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S4x128x128.size a
  hwx0_1 : ∀ i : grid0.Coords, EltTy.bits .bf16 = 32 ∨ (Rect.block (s := S4x128x128) S4x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x16x128.size a < S50000x16x128.size a
  hwx0_2 : ∀ i : grid0.Coords, EltTy.bits .f32 = 32 ∨ (Rect.unit (s := S50000x16x128) (fun a => cc0_transform_2 i a * S512x16x128.size a) (fun a => (Pipeline.Clip.of (cc0_transform_2 i a) (S512x16x128.size a) (S50000x16x128.size a)).extent (S512x16x128.size a)) fun a => Pipeline.Clip.inb (Pipeline.Clip.ok_of (hstart0_2 i a))).WholeWords (EltTy.packing .f32)
  hwxs0_2 : ∀ i : grid0.Coords, EltTy.bits .f32 = 32 ∨ (Rect.unit (s := S512x16x128) (fun _ => 0) (fun a => (Pipeline.Clip.of (cc0_transform_2 i a) (S512x16x128.size a) (S50000x16x128.size a)).extent (S512x16x128.size a)) fun a => (Nat.zero_add _).trans_le (Pipeline.Clip.extent_le (Pipeline.Clip.ok_of (hstart0_2 i a)))).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpecClip (Memref.whole main_arg0) S512x16x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S4x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v4) S512x16x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x16x128 : Shape := ⟨3, ![50000, 16, 128]⟩
abbrev S4x128x128 : Shape := ⟨3, ![4, 128, 128]⟩
abbrev S4 : Shape := ⟨1, ![4]⟩
abbrev S50000x1x128 : Shape := ⟨3, ![50000, 1, 128]⟩
abbrev S1x128x128 : Shape := ⟨3, ![1, 128, 128]⟩
abbrev S128x128 : Shape := ⟨2, ![128, 128]⟩
abbrev S1 : Shape := ⟨1, ![1]⟩
abbrev S_ : Shape := ⟨0, ![]⟩
abbrev S50000x3x128 : Shape := ⟨3, ![50000, 3, 128]⟩
abbrev S50000x5x128 : Shape := ⟨3, ![50000, 5, 128]⟩
abbrev S50000x7x128 : Shape := ⟨3, ![50000, 7, 128]⟩

abbrev nBuf : Space → Nat
  | .hbm => 36
  | .vmem => 0
  | .smem => 0
  | _ => 0

abbrev bufTy : (tb : Table) → Fin (tcTables nBuf tb) → BufTy
  | .hbm, ⟨0, _⟩ => ⟨S50000x16x128, .f32⟩
  | .hbm, ⟨1, _⟩ => ⟨S4x128x128, .f32⟩
  | .hbm, ⟨2, _⟩ => ⟨S4, .f32⟩
  | .hbm, ⟨3, _⟩ => ⟨S50000x1x128, .f32⟩
  | .hbm, ⟨4, _⟩ => ⟨S1x128x128, .f32⟩
  | .hbm, ⟨5, _⟩ => ⟨S128x128, .f32⟩
  | .hbm, ⟨6, _⟩ => ⟨S50000x1x128, .f32⟩
  | .hbm, ⟨7, _⟩ => ⟨S1, .f32⟩
  | .hbm, ⟨8, _⟩ => ⟨S_, .f32⟩
  | .hbm, ⟨9, _⟩ => ⟨S50000x1x128, .f32⟩
  | .hbm, ⟨10, _⟩ => ⟨S50000x1x128, .f32⟩
  | .hbm, ⟨11, _⟩ => ⟨S50000x3x128, .f32⟩
  | .hbm, ⟨12, _⟩ => ⟨S1x128x128, .f32⟩
  | .hbm, ⟨13, _⟩ => ⟨S128x128, .f32⟩
  | .hbm, ⟨14, _⟩ => ⟨S50000x3x128, .f32⟩
  | .hbm, ⟨15, _⟩ => ⟨S1, .f32⟩
  | .hbm, ⟨16, _⟩ => ⟨S_, .f32⟩
  | .hbm, ⟨17, _⟩ => ⟨S50000x3x128, .f32⟩
  | .hbm, ⟨18, _⟩ => ⟨S50000x3x128, .f32⟩
  | .hbm, ⟨19, _⟩ => ⟨S50000x5x128, .f32⟩
  | .hbm, ⟨20, _⟩ => ⟨S1x128x128, .f32⟩
  | .hbm, ⟨21, _⟩ => ⟨S128x128, .f32⟩
  | .hbm, ⟨22, _⟩ => ⟨S50000x5x128, .f32⟩
  | .hbm, ⟨23, _⟩ => ⟨S1, .f32⟩
  | .hbm, ⟨24, _⟩ => ⟨S_, .f32⟩
  | .hbm, ⟨25, _⟩ => ⟨S50000x5x128, .f32⟩
  | .hbm, ⟨26, _⟩ => ⟨S50000x5x128, .f32⟩
  | .hbm, ⟨27, _⟩ => ⟨S50000x7x128, .f32⟩
  | .hbm, ⟨28, _⟩ => ⟨S1x128x128, .f32⟩
  | .hbm, ⟨29, _⟩ => ⟨S128x128, .f32⟩
  | .hbm, ⟨30, _⟩ => ⟨S50000x7x128, .f32⟩
  | .hbm, ⟨31, _⟩ => ⟨S1, .f32⟩
  | .hbm, ⟨32, _⟩ => ⟨S_, .f32⟩
  | .hbm, ⟨33, _⟩ => ⟨S50000x7x128, .f32⟩
  | .hbm, ⟨34, _⟩ => ⟨S50000x7x128, .f32⟩
  | .hbm, ⟨35, _⟩ => ⟨S50000x16x128, .f32⟩
  | _, _ => ⟨S50000x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩

abbrev nD : Nat := 1
abbrev τ : Topo := Topo.v7x

variable {F : FTy → Type} [FloatOps F]

class Facts₀ : Prop where
  slices_S50000x16x128_S50000x1x128_0_0_0 : S50000x16x128.Slices ![0, 0, 0] S50000x1x128
  slices_S4x128x128_S1x128x128_0_0_0 : S4x128x128.Slices ![0, 0, 0] S1x128x128
  shapeCasts_S1x128x128_S128x128 : S1x128x128.ShapeCasts S128x128
  slices_S4_S1_0 : S4.Slices ![0] S1
  shapeCasts_S1_S_ : S1.ShapeCasts S_
  bcast_S_S50000x1x128 : S_.BroadcastsInDim S50000x1x128 (![] : Fin 0 → Fin S50000x1x128.rank)
  slices_S50000x16x128_S50000x3x128_0_1_0 : S50000x16x128.Slices ![0, 1, 0] S50000x3x128
  slices_S4x128x128_S1x128x128_1_0_0 : S4x128x128.Slices ![1, 0, 0] S1x128x128
  slices_S4_S1_1 : S4.Slices ![1] S1
  bcast_S_S50000x3x128 : S_.BroadcastsInDim S50000x3x128 (![] : Fin 0 → Fin S50000x3x128.rank)
  slices_S50000x16x128_S50000x5x128_0_4_0 : S50000x16x128.Slices ![0, 4, 0] S50000x5x128
  slices_S4x128x128_S1x128x128_2_0_0 : S4x128x128.Slices ![2, 0, 0] S1x128x128
  slices_S4_S1_2 : S4.Slices ![2] S1
  bcast_S_S50000x5x128 : S_.BroadcastsInDim S50000x5x128 (![] : Fin 0 → Fin S50000x5x128.rank)
  slices_S50000x16x128_S50000x7x128_0_9_0 : S50000x16x128.Slices ![0, 9, 0] S50000x7x128
  slices_S4x128x128_S1x128x128_3_0_0 : S4x128x128.Slices ![3, 0, 0] S1x128x128
  slices_S4_S1_3 : S4.Slices ![3] S1
  bcast_S_S50000x7x128 : S_.BroadcastsInDim S50000x7x128 (![] : Fin 0 → Fin S50000x7x128.rank)
  concatenates_S50000x1x128_S50000x3x128_S50000x5x128_S50000x7x128_S50000x16x128_d1 : Shape.Concatenates [S50000x1x128, S50000x3x128, S50000x5x128, S50000x7x128] S50000x16x128 1
  dot_S50000x1x128_S128x128_S50000x1x128_2_0_01_1_n_n_wf : DotDims.WF S50000x1x128 S128x128 S50000x1x128 [2] [0] [0, 1] [1] [] []
  dot_S50000x3x128_S128x128_S50000x3x128_2_0_01_1_n_n_wf : DotDims.WF S50000x3x128 S128x128 S50000x3x128 [2] [0] [0, 1] [1] [] []
  dot_S50000x5x128_S128x128_S50000x5x128_2_0_01_1_n_n_wf : DotDims.WF S50000x5x128 S128x128 S50000x5x128 [2] [0] [0, 1] [1] [] []
  dot_S50000x7x128_S128x128_S50000x7x128_2_0_01_1_n_n_wf : DotDims.WF S50000x7x128 S128x128 S50000x7x128 [2] [0] [0, 1] [1] [] []

variable [Facts₀]

def dot_S50000x1x128_S128x128_S50000x1x128_2_0_01_1_n_n : DotDims S50000x1x128 S128x128 S50000x1x128 where
  lhsContracting := [2]
  rhsContracting := [0]
  lhsNonContracting := [0, 1]
  rhsNonContracting := [1]
  lhsBatch := []
  rhsBatch := []
  wf := dot_S50000x1x128_S128x128_S50000x1x128_2_0_01_1_n_n_wf
def dot_S50000x3x128_S128x128_S50000x3x128_2_0_01_1_n_n : DotDims S50000x3x128 S128x128 S50000x3x128 where
  lhsContracting := [2]
  rhsContracting := [0]
  lhsNonContracting := [0, 1]
  rhsNonContracting := [1]
  lhsBatch := []
  rhsBatch := []
  wf := dot_S50000x3x128_S128x128_S50000x3x128_2_0_01_1_n_n_wf
def dot_S50000x5x128_S128x128_S50000x5x128_2_0_01_1_n_n : DotDims S50000x5x128 S128x128 S50000x5x128 where
  lhsContracting := [2]
  rhsContracting := [0]
  lhsNonContracting := [0, 1]
  rhsNonContracting := [1]
  lhsBatch := []
  rhsBatch := []
  wf := dot_S50000x5x128_S128x128_S50000x5x128_2_0_01_1_n_n_wf
def dot_S50000x7x128_S128x128_S50000x7x128_2_0_01_1_n_n : DotDims S50000x7x128 S128x128 S50000x7x128 where
  lhsContracting := [2]
  rhsContracting := [0]
  lhsNonContracting := [0, 1]
  rhsNonContracting := [1]
  lhsBatch := []
  rhsBatch := []
  wf := dot_S50000x7x128_S128x128_S50000x7x128_2_0_01_1_n_n_wf

class Facts : Prop extends Facts₀ where

variable [Facts]
-- ==== Proof.TileK.lean ====
/-
  One tile of the grouped linear map.

  A tile is 512 nodes by 16 spherical-harmonic rows by 128 channels. Row k of the tile (k = 0 … 15) belongs to the
  degree l(k) with l = 0 for k = 0, l = 1 for k = 1 … 3, l = 2 for k = 4 … 8 and l = 3 for k = 9 … 15. The body
  multiplies the 512 × 128 matrix of row k by the 128 × 128 matrix of degree l(k) and stores the product as row k of
  the output tile. The sixteen stores tile the output buffer, so what the buffer holds afterwards does not depend on
  what it held before: it is `tileProduct x w`, the sixteen row products laid side by side.
-/
import proofs.«118936_j30597347016799_1_alg».proof.Proof.Gen.Kernel.Skeleton
import Idealize.ShloMosaic.Lib.Pipeline.FrameBody
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rows of a tile and the matrices of the four degrees -/

abbrev rowRect0 : Rect S512x16x128 := Rect.unit (s := S512x16x128) ![0, 0, 0] S512x1x128.size inb_S512x16x128_S512x1x128_0_0_0
abbrev rowRect1 : Rect S512x16x128 := Rect.unit (s := S512x16x128) ![0, 1, 0] S512x1x128.size inb_S512x16x128_S512x1x128_0_1_0
abbrev rowRect2 : Rect S512x16x128 := Rect.unit (s := S512x16x128) ![0, 2, 0] S512x1x128.size inb_S512x16x128_S512x1x128_0_2_0
abbrev rowRect3 : Rect S512x16x128 := Rect.unit (s := S512x16x128) ![0, 3, 0] S512x1x128.size inb_S512x16x128_S512x1x128_0_3_0
abbrev rowRect4 : Rect S512x16x128 := Rect.unit (s := S512x16x128) ![0, 4, 0] S512x1x128.size inb_S512x16x128_S512x1x128_0_4_0
abbrev rowRect5 : Rect S512x16x128 := Rect.unit (s := S512x16x128) ![0, 5, 0] S512x1x128.size inb_S512x16x128_S512x1x128_0_5_0
abbrev rowRect6 : Rect S512x16x128 := Rect.unit (s := S512x16x128) ![0, 6, 0] S512x1x128.size inb_S512x16x128_S512x1x128_0_6_0
abbrev rowRect7 : Rect S512x16x128 := Rect.unit (s := S512x16x128) ![0, 7, 0] S512x1x128.size inb_S512x16x128_S512x1x128_0_7_0
abbrev rowRect8 : Rect S512x16x128 := Rect.unit (s := S512x16x128) ![0, 8, 0] S512x1x128.size inb_S512x16x128_S512x1x128_0_8_0
abbrev rowRect9 : Rect S512x16x128 := Rect.unit (s := S512x16x128) ![0, 9, 0] S512x1x128.size inb_S512x16x128_S512x1x128_0_9_0
abbrev rowRect10 : Rect S512x16x128 := Rect.unit (s := S512x16x128) ![0, 10, 0] S512x1x128.size inb_S512x16x128_S512x1x128_0_10_0
abbrev rowRect11 : Rect S512x16x128 := Rect.unit (s := S512x16x128) ![0, 11, 0] S512x1x128.size inb_S512x16x128_S512x1x128_0_11_0
abbrev rowRect12 : Rect S512x16x128 := Rect.unit (s := S512x16x128) ![0, 12, 0] S512x1x128.size inb_S512x16x128_S512x1x128_0_12_0
abbrev rowRect13 : Rect S512x16x128 := Rect.unit (s := S512x16x128) ![0, 13, 0] S512x1x128.size inb_S512x16x128_S512x1x128_0_13_0
abbrev rowRect14 : Rect S512x16x128 := Rect.unit (s := S512x16x128) ![0, 14, 0] S512x1x128.size inb_S512x16x128_S512x1x128_0_14_0
abbrev rowRect15 : Rect S512x16x128 := Rect.unit (s := S512x16x128) ![0, 15, 0] S512x1x128.size inb_S512x16x128_S512x1x128_0_15_0

abbrev degRect0 : Rect S4x128x128 := Rect.unit (s := S4x128x128) ![0, 0, 0] S1x128x128.size inb_S4x128x128_S1x128x128_0_0_0
abbrev degRect1 : Rect S4x128x128 := Rect.unit (s := S4x128x128) ![1, 0, 0] S1x128x128.size inb_S4x128x128_S1x128x128_1_0_0
abbrev degRect2 : Rect S4x128x128 := Rect.unit (s := S4x128x128) ![2, 0, 0] S1x128x128.size inb_S4x128x128_S1x128x128_2_0_0
abbrev degRect3 : Rect S4x128x128 := Rect.unit (s := S4x128x128) ![3, 0, 0] S1x128x128.size inb_S4x128x128_S1x128x128_3_0_0

/-- Row k of a tile (512 × 1 × 128) times one degree's matrix (1 × 128 × 128): the row flattened to 512 × 128, multiplied
    into the zero matrix, and given its unit axis back. -/
def rowProduct (x : Vec F S512x1x128 .f32) (w : Vec F S1x128x128 .bf16) : FVec F S512x1x128 .f32 :=
  shapeCast S512x1x128
    (matmul dot_S512x128_S128x128_S512x128_1_0_0_1_n_n none
      (truncf .bf16 (shapeCast S512x128 x shapeCasts_S512x1x128_S512x128) bitsLt_bf16_f32)
      (shapeCast S128x128 w shapeCasts_S1x128x128_S128x128)
      (constant S512x128 .f32 0x00000000#32))
    shapeCasts_S512x128_S512x1x128

/-- The output tile: row k is the product of the input tile's row k with the matrix of degree l(k); the rows listed
    from the last stored to the first. -/
def tileProduct (x : Vec F S512x16x128 .f32) (w : Vec F S4x128x128 .bf16) : Vec F S512x16x128 .f32 :=
  View.canon [⟨rowRect15, rowProduct (View.ld x rowRect15) (View.ld w degRect3)⟩,
    ⟨rowRect14, rowProduct (View.ld x rowRect14) (View.ld w degRect3)⟩,
    ⟨rowRect13, rowProduct (View.ld x rowRect13) (View.ld w degRect3)⟩,
    ⟨rowRect12, rowProduct (View.ld x rowRect12) (View.ld w degRect3)⟩,
    ⟨rowRect11, rowProduct (View.ld x rowRect11) (View.ld w degRect3)⟩,
    ⟨rowRect10, rowProduct (View.ld x rowRect10) (View.ld w degRect3)⟩,
    ⟨rowRect9, rowProduct (View.ld x rowRect9) (View.ld w degRect3)⟩,
    ⟨rowRect8, rowProduct (View.ld x rowRect8) (View.ld w degRect2)⟩,
    ⟨rowRect7, rowProduct (View.ld x rowRect7) (View.ld w degRect2)⟩,
    ⟨rowRect6, rowProduct (View.ld x rowRect6) (View.ld w degRect2)⟩,
    ⟨rowRect5, rowProduct (View.ld x rowRect5) (View.ld w degRect2)⟩,
    ⟨rowRect4, rowProduct (View.ld x rowRect4) (View.ld w degRect2)⟩,
    ⟨rowRect3, rowProduct (View.ld x rowRect3) (View.ld w degRect1)⟩,
    ⟨rowRect2, rowProduct (View.ld x rowRect2) (View.ld w degRect1)⟩,
    ⟨rowRect1, rowProduct (View.ld x rowRect1) (View.ld w degRect1)⟩,
    ⟨rowRect0, rowProduct (View.ld x rowRect0) (View.ld w degRect0)⟩]

/-- The sixteen rows tile the buffer, so every index of it lies in one of them. -/
theorem rows_cover (p0 : Vec F S512x1x128 .f32) (p1 : Vec F S512x1x128 .f32) (p2 : Vec F S512x1x128 .f32) (p3 : Vec F S512x1x128 .f32) (p4 : Vec F S512x1x128 .f32) (p5 : Vec F S512x1x128 .f32) (p6 : Vec F S512x1x128 .f32) (p7 : Vec F S512x1x128 .f32) (p8 : Vec F S512x1x128 .f32) (p9 : Vec F S512x1x128 .f32) (p10 : Vec F S512x1x128 .f32) (p11 : Vec F S512x1x128 .f32) (p12 : Vec F S512x1x128 .f32) (p13 : Vec F S512x1x128 .f32) (p14 : Vec F S512x1x128 .f32) (p15 : Vec F S512x1x128 .f32) (y : S512x16x128.Idx) :
    ∃ pc ∈ ([⟨rowRect15, p0⟩, ⟨rowRect14, p1⟩, ⟨rowRect13, p2⟩, ⟨rowRect12, p3⟩, ⟨rowRect11, p4⟩, ⟨rowRect10, p5⟩, ⟨rowRect9, p6⟩, ⟨rowRect8, p7⟩, ⟨rowRect7, p8⟩, ⟨rowRect6, p9⟩, ⟨rowRect5, p10⟩, ⟨rowRect4, p11⟩, ⟨rowRect3, p12⟩, ⟨rowRect2, p13⟩, ⟨rowRect1, p14⟩, ⟨rowRect0, p15⟩] : List (View.Piece (Elt F) S512x16x128 .f32)), y ∈ pc.1.set :=
  View.cover_of_tiled [⟨rowRect15, p0⟩, ⟨rowRect14, p1⟩, ⟨rowRect13, p2⟩, ⟨rowRect12, p3⟩, ⟨rowRect11, p4⟩, ⟨rowRect10, p5⟩, ⟨rowRect9, p6⟩, ⟨rowRect8, p7⟩, ⟨rowRect7, p8⟩, ⟨rowRect6, p9⟩, ⟨rowRect5, p10⟩, ⟨rowRect4, p11⟩, ⟨rowRect3, p12⟩, ⟨rowRect2, p13⟩, ⟨rowRect1, p14⟩, ⟨rowRect0, p15⟩] S512x1x128.size (by rfl) y

end Cert.Kernel.Tile

end
-- ==== Proof.BodyK.lean ====
/-
  The body of the kernel on one tile.

  Given the input tile's staging buffer holding `x`, the four degree matrices' buffer holding `w`, and the output
  tile's buffer holding anything, the body runs without fault: sixteen times it loads a row of `x`, loads the matrix
  of the row's degree, loads (and ignores) the same row of the output buffer, and stores the product as that row of the
  output. It leaves the two inputs as they were and the output buffer at `tileProduct x w`.
-/
import proofs.«118936_j30597347016799_1_alg».proof.Proof.TileK

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body's triple on whole staging memrefs. -/
theorem sound_kernel (c : Dev nD) (E : Set ℕ) (i : grid0.Coords)
    (arg1 : Memref sig .tc .vmem S512x16x128 .f32) (harg1 : arg1.IsWhole)
    (arg2 : Memref sig .tc .vmem S4x128x128 .bf16) (harg2 : arg2.IsWhole)
    (arg3 : Memref sig .tc .vmem S512x16x128 .f32) (harg3 : arg3.IsWhole)
    (x : Vec F S512x16x128 .f32) (w : Vec F S4x128x128 .bf16) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (tileProduct x w)) -∗ K ⟨⟩))
      ⊢ wp frame (wpE (defs₀ (F := F)) Variants.none c none) E (cc0__grouped_linear_kernel i arg1 harg1 arg2 harg2 arg3 harg3) K := by
  simp only [cc0__grouped_linear_kernel_eq_skeleton]; unfold cc0__grouped_linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (rows_cover _ _ _ _ _ _ _ _ _ _ _ _ _ _ _ _)

end Cert.Kernel.Tile

end
-- ==== Proof.FrameK.lean ====
/-
  The word-level kernel runs to its end and leaves its arguments unchanged.

  At the word level the matrix product of a whole tile is one opaque function of the whole tile, so the rows of the
  output tile that are written back may depend on what lies in the input tile's buffer below the array's last row, which
  is unknown. Nothing is claimed of the result array here, so the proof data says nothing of the output tile: the body
  is handed its buffer at any contents and hands it back at any contents. The input tile and the degree matrices are
  left as they were found.
-/
import proofs.«118936_j30597347016799_1_alg».proof.Proof.BodyK
import proofs.«118936_j30597347016799_1_alg».proof.Proof.Gen.Kernel.Frame
import proofs.«118936_j30597347016799_1_alg».proof.Proof.Gen.Kernel.Points

set_option maxRecDepth 16384

noncomputable section

namespace Cert.Kernel.Data

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

open Cert.Kernel.Tile

local notation "𝕄" => MT nD τ sig Unit (Elt F) ℕ (UR sig nD τ) ℕ

variable (m : (ℓ : Loc nD τ sig) → Buf (Elt F) ℓ) (ρ : Dev nD → PrngReg)

/-- The one window whose contents are not named: the output tile. -/
def unnamedWindows : Fin 3 → Bool := fun w => w.val == 2

/-- The input tile at point t: the rows of x inside the array, and a zero word below the array's last row. -/
def xTile (c : Dev nD) (t : Fin cfg0.N) : Vec F S512x16x128 .f32 :=
  win0_0.fill (grid0.coords t) (fun _ => Scalar.ofBits .f32 0#32) (iblk m c 0 t)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => xTile m c t
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = xTile m c t := by dsimp only [dats]
theorem after1 (c : Dev nD) (t : Fin cfg0.N) : (dats m 0 c).after 1 t = iblk m c 1 t := by dsimp only [dats]

/-- The input tile's buffer has just been fetched: the rows of x inside the array, anything below. -/
theorem before0 (c : Dev nD) (t : Fin cfg0.N) (d) :
    (dats m 0 c).before 0 t d = win0_0.fill (grid0.coords t) d (iblk m c 0 t) := by
  unfold Dat.before; rw [if_pos (fetch0_0 t)]; rfl

/-- The degree matrices' buffer holds them at every point. -/
theorem before1 (c : Dev nD) (t : Fin cfg0.N) (d) : (dats m 0 c).before 1 t d = iblk m c 1 t :=
  before0_1_of m (dats m 0 c) (A_eq m c 1) (after1 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1]
  iintro ⟨HΦ, Ho, ⟨%d0, H0⟩, ⟨%d1, H1⟩, ⟨%d2, H2⟩⟩
  iapply (sound_kernel (F := F) c Set.univ _ _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win0_0.cut (grid0.coords t) (xTile m c t) = iblk m c 0 t from win0_0.cut_fill _ _ _]
    iexact H0
  isplitl [H1]; · iexact H1
  iexists _; iexact H2

/-- The library's body obligation, at every point, the output tile unnamed. -/
theorem body_obligation (c : Dev nD) :
    BodyObligationLoose (dats (F := F) m 0 c) (defs₀ (F := F)) Variants.none () Set.univ unnamedWindows := fun t => by
  rw [bigSep_W0, bigSep_W0]
  exact sound_body m c t

set_option backward.isDefEq.respectTransparency.types false in
/-- Every weakly fair execution terminates without fault, the staged input arrays and every array no window stages
    end as the region found them. -/
theorem run_main : θ_run defs (onTc (τ := τ) (main (F := F))) (s₀ m ρ)
    (Pipeline.RDat.FramePost (cfgs 0) (fun c => (dats m 0 c).toRForget unnamedWindows) (V m)) :=
  Pipeline.RDat.θ_run_frame cfgs (0 : Fin 1) launch0 defs₀ Variants.none (fun c => (dats m 0 c).toRForget unnamedWindows) m ρ main
    (hbody := fun c => (body_obligation m c).toRForget)
    (hshare := fun c => ((dats m 0 c).toRForget unnamedWindows).share_full fun _ => rfl)
    (howed := fun _ _ => rfl) (V := V m) (hmain := hmain m Variants.none) (hA := A_eq m) (hΦ := fun _ _ => rfl)

/-- The frame: the three arguments end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Data

end
-- ==== Proof.TileI.lean ====
/-
  One tile of the grouped linear map.

  A tile is 512 nodes by 16 spherical-harmonic rows by 128 channels. Row k of the tile (k = 0 … 15) belongs to the
  degree l(k) with l = 0 for k = 0, l = 1 for k = 1 … 3, l = 2 for k = 4 … 8 and l = 3 for k = 9 … 15. The body
  multiplies the 512 × 128 matrix of row k by the 128 × 128 matrix of degree l(k) and stores the product as row k of
  the output tile. The sixteen stores tile the output buffer, so what the buffer holds afterwards does not depend on
  what it held before: it is `tileProduct x w`, the sixteen row products laid side by side.
-/
import proofs.«118936_j30597347016799_1_alg».proof.Proof.Gen.KernelIdeal.Skeleton
import Idealize.ShloMosaic.Lib.Pipeline.FrameBody
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rows of a tile and the matrices of the four degrees -/

abbrev rowRect0 : Rect S512x16x128 := Rect.unit (s := S512x16x128) ![0, 0, 0] S512x1x128.size inb_S512x16x128_S512x1x128_0_0_0
abbrev rowRect1 : Rect S512x16x128 := Rect.unit (s := S512x16x128) ![0, 1, 0] S512x1x128.size inb_S512x16x128_S512x1x128_0_1_0
abbrev rowRect2 : Rect S512x16x128 := Rect.unit (s := S512x16x128) ![0, 2, 0] S512x1x128.size inb_S512x16x128_S512x1x128_0_2_0
abbrev rowRect3 : Rect S512x16x128 := Rect.unit (s := S512x16x128) ![0, 3, 0] S512x1x128.size inb_S512x16x128_S512x1x128_0_3_0
abbrev rowRect4 : Rect S512x16x128 := Rect.unit (s := S512x16x128) ![0, 4, 0] S512x1x128.size inb_S512x16x128_S512x1x128_0_4_0
abbrev rowRect5 : Rect S512x16x128 := Rect.unit (s := S512x16x128) ![0, 5, 0] S512x1x128.size inb_S512x16x128_S512x1x128_0_5_0
abbrev rowRect6 : Rect S512x16x128 := Rect.unit (s := S512x16x128) ![0, 6, 0] S512x1x128.size inb_S512x16x128_S512x1x128_0_6_0
abbrev rowRect7 : Rect S512x16x128 := Rect.unit (s := S512x16x128) ![0, 7, 0] S512x1x128.size inb_S512x16x128_S512x1x128_0_7_0
abbrev rowRect8 : Rect S512x16x128 := Rect.unit (s := S512x16x128) ![0, 8, 0] S512x1x128.size inb_S512x16x128_S512x1x128_0_8_0
abbrev rowRect9 : Rect S512x16x128 := Rect.unit (s := S512x16x128) ![0, 9, 0] S512x1x128.size inb_S512x16x128_S512x1x128_0_9_0
abbrev rowRect10 : Rect S512x16x128 := Rect.unit (s := S512x16x128) ![0, 10, 0] S512x1x128.size inb_S512x16x128_S512x1x128_0_10_0
abbrev rowRect11 : Rect S512x16x128 := Rect.unit (s := S512x16x128) ![0, 11, 0] S512x1x128.size inb_S512x16x128_S512x1x128_0_11_0
abbrev rowRect12 : Rect S512x16x128 := Rect.unit (s := S512x16x128) ![0, 12, 0] S512x1x128.size inb_S512x16x128_S512x1x128_0_12_0
abbrev rowRect13 : Rect S512x16x128 := Rect.unit (s := S512x16x128) ![0, 13, 0] S512x1x128.size inb_S512x16x128_S512x1x128_0_13_0
abbrev rowRect14 : Rect S512x16x128 := Rect.unit (s := S512x16x128) ![0, 14, 0] S512x1x128.size inb_S512x16x128_S512x1x128_0_14_0
abbrev rowRect15 : Rect S512x16x128 := Rect.unit (s := S512x16x128) ![0, 15, 0] S512x1x128.size inb_S512x16x128_S512x1x128_0_15_0

abbrev degRect0 : Rect S4x128x128 := Rect.unit (s := S4x128x128) ![0, 0, 0] S1x128x128.size inb_S4x128x128_S1x128x128_0_0_0
abbrev degRect1 : Rect S4x128x128 := Rect.unit (s := S4x128x128) ![1, 0, 0] S1x128x128.size inb_S4x128x128_S1x128x128_1_0_0
abbrev degRect2 : Rect S4x128x128 := Rect.unit (s := S4x128x128) ![2, 0, 0] S1x128x128.size inb_S4x128x128_S1x128x128_2_0_0
abbrev degRect3 : Rect S4x128x128 := Rect.unit (s := S4x128x128) ![3, 0, 0] S1x128x128.size inb_S4x128x128_S1x128x128_3_0_0

/-- Row k of a tile (512 × 1 × 128) times one degree's matrix (1 × 128 × 128): the row flattened to 512 × 128, multiplied
    into the zero matrix, and given its unit axis back. -/
def rowProduct (x : Vec F S512x1x128 .f32) (w : Vec F S1x128x128 .bf16) : FVec F S512x1x128 .f32 :=
  shapeCast S512x1x128
    (matmul dot_S512x128_S128x128_S512x128_1_0_0_1_n_n none
      (truncf .bf16 (shapeCast S512x128 x shapeCasts_S512x1x128_S512x128) bitsLt_bf16_f32)
      (shapeCast S128x128 w shapeCasts_S1x128x128_S128x128)
      (constant S512x128 .f32 0x00000000#32))
    shapeCasts_S512x128_S512x1x128

/-- The output tile: row k is the product of the input tile's row k with the matrix of degree l(k); the rows listed
    from the last stored to the first. -/
def tileProduct (x : Vec F S512x16x128 .f32) (w : Vec F S4x128x128 .bf16) : Vec F S512x16x128 .f32 :=
  View.canon [⟨rowRect15, rowProduct (View.ld x rowRect15) (View.ld w degRect3)⟩,
    ⟨rowRect14, rowProduct (View.ld x rowRect14) (View.ld w degRect3)⟩,
    ⟨rowRect13, rowProduct (View.ld x rowRect13) (View.ld w degRect3)⟩,
    ⟨rowRect12, rowProduct (View.ld x rowRect12) (View.ld w degRect3)⟩,
    ⟨rowRect11, rowProduct (View.ld x rowRect11) (View.ld w degRect3)⟩,
    ⟨rowRect10, rowProduct (View.ld x rowRect10) (View.ld w degRect3)⟩,
    ⟨rowRect9, rowProduct (View.ld x rowRect9) (View.ld w degRect3)⟩,
    ⟨rowRect8, rowProduct (View.ld x rowRect8) (View.ld w degRect2)⟩,
    ⟨rowRect7, rowProduct (View.ld x rowRect7) (View.ld w degRect2)⟩,
    ⟨rowRect6, rowProduct (View.ld x rowRect6) (View.ld w degRect2)⟩,
    ⟨rowRect5, rowProduct (View.ld x rowRect5) (View.ld w degRect2)⟩,
    ⟨rowRect4, rowProduct (View.ld x rowRect4) (View.ld w degRect2)⟩,
    ⟨rowRect3, rowProduct (View.ld x rowRect3) (View.ld w degRect1)⟩,
    ⟨rowRect2, rowProduct (View.ld x rowRect2) (View.ld w degRect1)⟩,
    ⟨rowRect1, rowProduct (View.ld x rowRect1) (View.ld w degRect1)⟩,
    ⟨rowRect0, rowProduct (View.ld x rowRect0) (View.ld w degRect0)⟩]

/-- The sixteen rows tile the buffer, so every index of it lies in one of them. -/
theorem rows_cover (p0 : Vec F S512x1x128 .f32) (p1 : Vec F S512x1x128 .f32) (p2 : Vec F S512x1x128 .f32) (p3 : Vec F S512x1x128 .f32) (p4 : Vec F S512x1x128 .f32) (p5 : Vec F S512x1x128 .f32) (p6 : Vec F S512x1x128 .f32) (p7 : Vec F S512x1x128 .f32) (p8 : Vec F S512x1x128 .f32) (p9 : Vec F S512x1x128 .f32) (p10 : Vec F S512x1x128 .f32) (p11 : Vec F S512x1x128 .f32) (p12 : Vec F S512x1x128 .f32) (p13 : Vec F S512x1x128 .f32) (p14 : Vec F S512x1x128 .f32) (p15 : Vec F S512x1x128 .f32) (y : S512x16x128.Idx) :
    ∃ pc ∈ ([⟨rowRect15, p0⟩, ⟨rowRect14, p1⟩, ⟨rowRect13, p2⟩, ⟨rowRect12, p3⟩, ⟨rowRect11, p4⟩, ⟨rowRect10, p5⟩, ⟨rowRect9, p6⟩, ⟨rowRect8, p7⟩, ⟨rowRect7, p8⟩, ⟨rowRect6, p9⟩, ⟨rowRect5, p10⟩, ⟨rowRect4, p11⟩, ⟨rowRect3, p12⟩, ⟨rowRect2, p13⟩, ⟨rowRect1, p14⟩, ⟨rowRect0, p15⟩] : List (View.Piece (Elt F) S512x16x128 .f32)), y ∈ pc.1.set :=
  View.cover_of_tiled [⟨rowRect15, p0⟩, ⟨rowRect14, p1⟩, ⟨rowRect13, p2⟩, ⟨rowRect12, p3⟩, ⟨rowRect11, p4⟩, ⟨rowRect10, p5⟩, ⟨rowRect9, p6⟩, ⟨rowRect8, p7⟩, ⟨rowRect7, p8⟩, ⟨rowRect6, p9⟩, ⟨rowRect5, p10⟩, ⟨rowRect4, p11⟩, ⟨rowRect3, p12⟩, ⟨rowRect2, p13⟩, ⟨rowRect1, p14⟩, ⟨rowRect0, p15⟩] S512x1x128.size (by rfl) y

end Cert.KernelIdeal.Tile

end
-- ==== Proof.BodyI.lean ====
/-
  The body of the kernel on one tile.

  Given the input tile's staging buffer holding `x`, the four degree matrices' buffer holding `w`, and the output
  tile's buffer holding anything, the body runs without fault: sixteen times it loads a row of `x`, loads the matrix
  of the row's degree, loads (and ignores) the same row of the output buffer, and stores the product as that row of the
  output. It leaves the two inputs as they were and the output buffer at `tileProduct x w`.
-/
import proofs.«118936_j30597347016799_1_alg».proof.Proof.TileI

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body's triple on whole staging memrefs. -/
theorem sound_kernel (c : Dev nD) (E : Set ℕ) (i : grid0.Coords)
    (arg1 : Memref sig .tc .vmem S512x16x128 .f32) (harg1 : arg1.IsWhole)
    (arg2 : Memref sig .tc .vmem S4x128x128 .bf16) (harg2 : arg2.IsWhole)
    (arg3 : Memref sig .tc .vmem S512x16x128 .f32) (harg3 : arg3.IsWhole)
    (x : Vec F S512x16x128 .f32) (w : Vec F S4x128x128 .bf16) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (tileProduct x w)) -∗ K ⟨⟩))
      ⊢ wp frame (wpE (defs₀ (F := F)) Variants.none c none) E (cc0__grouped_linear_kernel i arg1 harg1 arg2 harg2 arg3 harg3) K := by
  simp only [cc0__grouped_linear_kernel_eq_skeleton]; unfold cc0__grouped_linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (rows_cover _ _ _ _ _ _ _ _ _ _ _ _ _ _ _ _)

end Cert.KernelIdeal.Tile

end
-- ==== Proof.Spec.lean ====
/-
  What the grouped linear map computes, as one function of its three arguments.

  The arguments are x, 50000 nodes × 16 spherical-harmonic rows × 128 channels; W, four 128 × 128 matrices, one per
  degree l = 0 … 3; and p, four path weights. Row m of a node belongs to degree l(m): l(0) = 0, l(1 … 3) = 1,
  l(4 … 8) = 2, l(9 … 15) = 3 (degree l owns the 2l + 1 rows from l² on). The result at node n, row m, output channel d is

      out (n, m, d) = ∑ q, x (n, m, q) · (W (l(m), q, d) · p (l(m))).

  The kernel computes exactly this sum (it scales the matrices by the path weights first). The reference multiplies
  afterwards, p (l) · ∑ q, x (n, m, q) · W (l, q, d); over the extended reals moving the factor inside the sum needs
  every number involved to be a real, which the finiteness of the inputs gives.
-/
import Idealize.ShloMosaic.PureOps.Ideal.Laws
import Idealize.ShloMosaic.Lib.ValueIdx

noncomputable section

open scoped BigOperators

namespace Cert.GroupedLinear

open Idealize.ShloMosaic Idealize.ShloMosaic.ValueIdx

/-- The shapes of x (and of the result), of W and of p. -/
abbrev SX : Shape := ⟨3, ![50000, 16, 128]⟩
abbrev SW : Shape := ⟨3, ![4, 128, 128]⟩
abbrev SP : Shape := ⟨1, ![4]⟩

/-- The degree l(m) of the spherical-harmonic row m. -/
def degree (m : Fin 16) : Fin 4 :=
  if m.val < 1 then 0 else if m.val < 4 then 1 else if m.val < 9 then 2 else 3

/-- The grouped linear map: at (n, m, d) the sum over the input channel q of x (n, m, q) · (W (l(m), q, d) · p (l(m))). -/
def out (x : SX.Idx → EReal) (W : SW.Idx → EReal) (p : SP.Idx → EReal) : SX.Idx → EReal :=
  fun i => ∑ q : Fin 128, x (ix3 (i 0) (i 1) q) * (W (ix3 (degree (i 1)) q (i 2)) * p (ix1 (degree (i 1))))

/-- A number of the extended reals that is a real. -/
def IsReal (a : EReal) : Prop := ∃ r : ℝ, a = (r : EReal)

/-- Among reals, a factor in front of a sum of products may be moved into every term, behind the second factor:
    c · ∑ q, a q · b q = ∑ q, a q · (b q · c). -/
theorem scale_sum {ι : Type} (s : Finset ι) (c : EReal) (a b : ι → EReal)
    (hc : IsReal c) (ha : ∀ q, IsReal (a q)) (hb : ∀ q, IsReal (b q)) :
    c * ∑ q ∈ s, a q * b q = ∑ q ∈ s, a q * (b q * c) := by
  obtain ⟨c', rfl⟩ := hc
  choose a' ha' using ha
  choose b' hb' using hb
  have hsum : ∀ f : ι → ℝ, (∑ q ∈ s, ((f q : ℝ) : EReal)) = ((∑ q ∈ s, f q : ℝ) : EReal) := by
    intro f
    classical
    induction s using Finset.induction_on with
    | empty => simp
    | insert j s hj ih => rw [Finset.sum_insert hj, Finset.sum_insert hj, ih, EReal.coe_add]
  have e1 : ∀ q, a q * b q = ((a' q * b' q : ℝ) : EReal) := fun q => by rw [ha', hb', EReal.coe_mul]
  have e2 : ∀ q, a q * (b q * (c' : EReal)) = ((a' q * (b' q * c') : ℝ) : EReal) := fun q => by
    rw [ha', hb', EReal.coe_mul, EReal.coe_mul]
  simp only [e1, e2]
  rw [hsum, hsum, ← EReal.coe_mul, Finset.mul_sum]
  congr 1
  exact Finset.sum_congr rfl fun q _ => by ring

end Cert.GroupedLinear

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.TileAt.lean ====
/-
  The output tile at one entry, over the extended reals.
-/
import proofs.«118936_j30597347016799_1_alg».proof.Proof.TileI
import proofs.«118936_j30597347016799_1_alg».proof.Proof.Spec
import proofs.«118936_j30597347016799_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tile

open Cert.KernelIdeal Cert.KernelIdeal.Gen Cert.GroupedLinear
open Idealize.ShloMosaic Idealize.ShloMosaic.TcCoe Idealize.ShloMosaic.ValueIdx

/-! ## Unit axes in the middle of a shape -/

/-- An a × 1 × b array flattened to a × b reads, at (i, j), the operand at (i, 0, j): both entries sit at the
    row-major position i · b + j. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An a × b array given a unit axis in the middle reads, at (i, u, j), the operand at (i, j): u is 0, and both
    entries sit at the row-major position i · b + j. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## One row product at an entry -/

/-- Entry (n, 0, d) of the product of a 512 × 1 × 128 row v with a 1 × 128 × 128 matrix u is the sum over the input
    channel q of v (n, 0, q) · u (0, q, d): the two unit axes are dropped and restored without moving any entry, the
    narrowing of the row changes nothing over the extended reals, and the product accumulated into the zero matrix is
    the plain 512 × 128 by 128 × 128 matrix product. -/
theorem rowProduct_apply (v : Vec Ideal S512x1x128 .f32) (u : Vec Ideal S1x128x128 .bf16) (n : Fin 512) (d : Fin 128) :
    rowProduct (F := Ideal) v u (ix3 n (0 : Fin 1) d)
      = ∑ q : Fin 128, v (ix3 n (0 : Fin 1) q) * u (ix3 (0 : Fin 1) q d) := by
  unfold rowProduct
  refine (shapeCast_ab_a1b_apply _ _ n 0 d).trans ?_
  refine (Cert.LibDotPlain.matmul_zero_plain 512 128 128 none _ _ n d).trans ?_
  refine Finset.sum_congr rfl fun q _ => ?_
  rw [truncf_apply, shapeCast_a1b_ab_apply, shapeCast_1ab_ab_apply]

/-! ## One row of the tile at the buffer index its rectangle names -/

/-- Row k of the tile, with l = l(k): the product of row k of x with the matrix of degree l, read at an index j of the
    row, is the sum over the input channel at the buffer index the row's rectangle places j at. The rectangle of row k
    sends (n, 0, d) to (n, k, d), and the rectangle of degree l sends (0, q, d) to (l, q, d). -/
theorem row_piece (x : Vec Ideal S512x16x128 .f32) (w : Vec Ideal S4x128x128 .bf16) (k : Fin 16) (l : Fin 4)
    (hl : degree k = l)
    (inbx : ∀ a, (![0, k.val, 0] : Fin 3 → Nat) a + S512x1x128.size a ≤ S512x16x128.size a)
    (inbw : ∀ a, (![l.val, 0, 0] : Fin 3 → Nat) a + S1x128x128.size a ≤ S4x128x128.size a)
    (j : S512x1x128.Idx) :
    rowProduct (F := Ideal) (View.ld x (Rect.unit (s := S512x16x128) ![0, k.val, 0] S512x1x128.size inbx))
        (View.ld w (Rect.unit (s := S4x128x128) ![l.val, 0, 0] S1x128x128.size inbw)) j
      = (fun y : S512x16x128.Idx => ∑ q : Fin 128, x (ix3 (y 0) (y 1) q) * w (ix3 (degree (y 1)) q (y 2)))
          ((Rect.unit (s := S512x16x128) ![0, k.val, 0] S512x1x128.size inbx).emb j) := by
  obtain ⟨n, u, d, rfl⟩ : ∃ (n : Fin 512) (u : Fin 1) (d : Fin 128), j = ix3 n u d := ⟨j 0, j 1, j 2, eq_ix3 j⟩
  obtain rfl : u = 0 := Subsingleton.elim _ _
  rw [rowProduct_apply]
  refine Finset.sum_congr rfl fun q _ => ?_
  have hE1 : (Rect.unit (s := S512x16x128) ![0, k.val, 0] S512x1x128.size inbx).emb (ix3 n (0 : Fin 1) d) 1 = k :=
    Fin.ext rfl
  rw [hE1, hl]
  refine congrArg₂ (· * ·) (congrArg x (funext fun a => Fin.ext ?_)) (congrArg w (funext fun a => Fin.ext ?_))
  · match a with
    | ⟨0, _⟩ => rfl
    | ⟨1, _⟩ => rfl
    | ⟨2, _⟩ => show 0 + 1 * q.val = q.val; omega
  · match a with
    | ⟨0, _⟩ => rfl
    | ⟨1, _⟩ => show 0 + 1 * q.val = q.val; omega
    | ⟨2, _⟩ => rfl

/-! ## The tile at an entry

Every one of the sixteen pieces is a block of the one function (n, k, d) ↦ ∑ q, x (n, k, q) · w (l(k), q, d) of the
buffer's index, and the sixteen rows cover the buffer, so the tile is that function at every index. -/

/-- Entry (n, k, d) of the output tile is the sum over the input channel q of x (n, k, q) · w (l(k), q, d). -/
theorem tileProduct_apply (x : Vec Ideal S512x16x128 .f32) (w : Vec Ideal S4x128x128 .bf16)
    (n : Fin 512) (k : Fin 16) (d : Fin 128) :
    tileProduct (F := Ideal) x w (ix3 n k d) = ∑ q : Fin 128, x (ix3 n k q) * w (ix3 (degree k) q d) := by
  unfold tileProduct
  refine View.canon_apply_of_pieces
    (fun y : S512x16x128.Idx => ∑ q : Fin 128, x (ix3 (y 0) (y 1) q) * w (ix3 (degree (y 1)) q (y 2)))
    _ ?_ (ix3 n k d) (rows_cover _ _ _ _ _ _ _ _ _ _ _ _ _ _ _ _ (ix3 n k d))
  intro p hp j
  simp only [List.mem_cons, List.not_mem_nil, or_false] at hp
  rcases hp with rfl | rfl | rfl | rfl | rfl | rfl | rfl | rfl | rfl | rfl | rfl | rfl | rfl | rfl | rfl | rfl
  · exact row_piece x w 15 3 rfl _ _ j
  · exact row_piece x w 14 3 rfl _ _ j
  · exact row_piece x w 13 3 rfl _ _ j
  · exact row_piece x w 12 3 rfl _ _ j
  · exact row_piece x w 11 3 rfl _ _ j
  · exact row_piece x w 10 3 rfl _ _ j
  · exact row_piece x w 9 3 rfl _ _ j
  · exact row_piece x w 8 2 rfl _ _ j
  · exact row_piece x w 7 2 rfl _ _ j
  · exact row_piece x w 6 2 rfl _ _ j
  · exact row_piece x w 5 2 rfl _ _ j
  · exact row_piece x w 4 2 rfl _ _ j
  · exact row_piece x w 3 1 rfl _ _ j
  · exact row_piece x w 2 1 rfl _ _ j
  · exact row_piece x w 1 1 rfl _ _ j
  · exact row_piece x w 0 0 rfl _ _ j

end Cert.KernelIdeal.Tile

end
-- ==== Proof.DataI.lean ====
/-
  The pipeline of the idealized kernel, tile by tile, over the extended reals.

  The grid has 98 points; point t stages rows 512·t … 512·t + 511 of x (the last point only 336 rows: the array has
  50000), the four degree matrices (once, whole), and an output tile that is written back to the same rows of the
  result. What lies in the input tile's buffer below the array's last row is unknown; the body multiplies it like
  every other row, but each row of the output tile depends only on the same row of the input tile, so the rows that are
  written back do not depend on it. The proof data therefore names, after the body at point t: the input tile with the
  unknown rows replaced by zeros (`xTile`), the degree matrices, and the product of these two (`yTile`); the body
  obligation holds because the true contents agree with the named ones on every row that is moved.
-/
import proofs.«118936_j30597347016799_1_alg».proof.Proof.BodyI
import proofs.«118936_j30597347016799_1_alg».proof.Proof.TileAt
import proofs.«118936_j30597347016799_1_alg».proof.Proof.Gen.KernelIdeal.Frame
import proofs.«118936_j30597347016799_1_alg».proof.Proof.Gen.KernelIdeal.Points

set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal.Tile Cert.GroupedLinear Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The tiles -/

/-- The input tile at point t: the rows of x inside the array, and zero below the array's last row. -/
def xTile (c : Dev nD) (t : Fin cfg0.N) : Vec Ideal S512x16x128 .f32 :=
  win0_0.fill (grid0.coords t) (fun _ => (FloatOps.ofBits (F := Ideal) FTy.f32 0#32 : Ideal FTy.f32)) (iblk m c 0 t)

/-- The output tile at point t: the product of the input tile with the degree matrices. -/
def yTile (c : Dev nD) (t : Fin cfg0.N) : Vec Ideal S512x16x128 .f32 :=
  tileProduct (F := Ideal) (xTile m c t) (iblk m c 1 t)

/-- The proof data of the one pipeline on core c. -/
def dats (_ : Fin 1) (c : Dev nD) : Dat τ (Elt Ideal) Unit ℕ (UR sig nD τ) ℕ cfg0 c where
  A w := V m c (Pipeline.arrRef spec0 w)
  after w t := match w with
    | ⟨0, _⟩ => xTile m c t
    | ⟨1, _⟩ => iblk m c 1 t
    | ⟨2, _⟩ => yTile m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = xTile m c t := by dsimp only [dats]
theorem after1 (c : Dev nD) (t : Fin cfg0.N) : (dats m 0 c).after 1 t = iblk m c 1 t := by dsimp only [dats]
theorem after2 (c : Dev nD) (t : Fin cfg0.N) : (dats m 0 c).after 2 t = yTile m c t := by dsimp only [dats]

/-! ## What the body finds -/

/-- The input tile's buffer has just been fetched: the rows of x inside the array, anything below. -/
theorem before0 (c : Dev nD) (t : Fin cfg0.N) (d) :
    (dats m 0 c).before 0 t d = win0_0.fill (grid0.coords t) d (iblk m c 0 t) := by
  unfold Dat.before; rw [if_pos (fetch0_0 t)]; rfl

/-- The degree matrices' buffer holds them at every point. -/
theorem before1 (c : Dev nD) (t : Fin cfg0.N) (d) : (dats m 0 c).before 1 t d = iblk m c 1 t :=
  before0_1_of m (dats m 0 c) (A_eq m c 1) (after1 m c) t d

/-- The output tile's buffer holds anything: the tile before it was written back. -/
theorem before2 (c : Dev nD) (t : Fin cfg0.N) (d) : (dats m 0 c).before 2 t d = d :=
  (dats m 0 c).before_out_reset 2 rfl t
    (by
      by_cases h : t.val = 0
      · exact .inl h
      · exact .inr ⟨h, flush0_2 _⟩) d

/-! ## Rows that are moved do not see the unknown rows -/

/-- The tiles are cut on the node axis only: every harmonic row and every channel is moved. -/
theorem moved_cols : ∀ t : Fin cfg0.N, win0_0.xsize (grid0.coords t) 1 = 16 ∧ win0_0.xsize (grid0.coords t) 2 = 128 :=
  (by decide +kernel : ∀ t : Fin grid0.N, win0_0.xsize (grid0.coords t) 1 = 16 ∧ win0_0.xsize (grid0.coords t) 2 = 128)

/-- On an entry that is moved, the filled tile is the block, whatever fills the rest. -/
theorem fill_agree (t : Fin cfg0.N) (d d' : S512x16x128.Idx → Elt Ideal .f32)
    (b : (win0_0.xblock (grid0.coords t)).Idx → Elt Ideal .f32) (J : S512x16x128.Idx)
    (hJ : win0_0.moved (grid0.coords t) J = true) :
    win0_0.fill (grid0.coords t) d b J = win0_0.fill (grid0.coords t) d' b J := by
  unfold Window.fill; rw [dif_pos hJ, dif_pos hJ]

/-- Entry (n, k, d) of the output tile reads row n, harmonic k of the input tile only. -/
theorem product_congr_row (X X' : Vec Ideal S512x16x128 .f32) (w : Vec Ideal S4x128x128 .bf16)
    (n : Fin 512) (k : Fin 16) (dd : Fin 128) (h : ∀ q : Fin 128, X (ix3 n k q) = X' (ix3 n k q)) :
    tileProduct (F := Ideal) X w (ix3 n k dd) = tileProduct (F := Ideal) X' w (ix3 n k dd) := by
  rw [tileProduct_apply, tileProduct_apply]
  exact Finset.sum_congr rfl fun q _ => by rw [h q]

/-- The output tile's moved rows are the same whatever the input tile holds on the rows that are not moved. -/
theorem cut_product (t : Fin cfg0.N) (d d' : S512x16x128.Idx → Elt Ideal .f32)
    (b : (win0_0.xblock (grid0.coords t)).Idx → Elt Ideal .f32) (w : Vec Ideal S4x128x128 .bf16) :
    win0_2.cut (grid0.coords t) (tileProduct (F := Ideal) (win0_0.fill (grid0.coords t) d b) w)
      = win0_2.cut (grid0.coords t) (tileProduct (F := Ideal) (win0_0.fill (grid0.coords t) d' b) w) := by
  have key : ∀ J : S512x16x128.Idx, (J 0).val < win0_0.xsize (grid0.coords t) 0 →
      tileProduct (F := Ideal) (win0_0.fill (grid0.coords t) d b) w J
        = tileProduct (F := Ideal) (win0_0.fill (grid0.coords t) d' b) w J := by
    intro J hJ0
    rw [eq_ix3 J]
    refine product_congr_row _ _ w _ _ _ fun q => fill_agree t d d' b _ ((win0_0.moved_iff _ _).mpr fun a => ?_)
    match a with
    | ⟨0, _⟩ => exact hJ0
    | ⟨1, _⟩ => exact lt_of_lt_of_eq (J 1).isLt (moved_cols t).1.symm
    | ⟨2, _⟩ => exact lt_of_lt_of_eq q.isLt (moved_cols t).2.symm
  funext j
  exact key (win0_2.xinj (grid0.coords t) j) (j 0).isLt

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t)))))

/-- The body's triple with the output tile's final contents given by any name equal to the product. -/
theorem sound_kernel_named (c : Dev nD) (E : Set ℕ) (i : grid0.Coords)
    (arg1 : Memref sig .tc .vmem S512x16x128 .f32) (harg1 : arg1.IsWhole)
    (arg2 : Memref sig .tc .vmem S4x128x128 .bf16) (harg2 : arg2.IsWhole)
    (arg3 : Memref sig .tc .vmem S512x16x128 .f32) (harg3 : arg3.IsWhole)
    (x : Vec Ideal S512x16x128 .f32) (w : Vec Ideal S4x128x128 .bf16) (y : Vec Ideal S512x16x128 .f32)
    (hy : y = tileProduct (F := Ideal) x w) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare y) -∗ K ⟨⟩))
      ⊢ wp frame (wpE (defs₀ (F := Ideal)) Variants.none c none) E (cc0__grouped_linear_kernel i arg1 harg1 arg2 harg2 arg3 harg3) K := by
  subst hy
  exact sound_kernel (F := Ideal) c E i arg1 harg1 arg2 harg2 arg3 harg3 x w K

/-- What the body leaves in the output tile's buffer is the named tile on every row that is moved. -/
theorem leaves_yTile (c : Dev nD) (t : Fin cfg0.N) (d0 : S512x16x128.Idx → Elt Ideal .f32) :
    win0_2.fill (grid0.coords t) (tileProduct (F := Ideal) (win0_0.fill (grid0.coords t) d0 (iblk m c 0 t)) (iblk m c 1 t))
        (win0_2.cut (grid0.coords t) (yTile m c t))
      = tileProduct (F := Ideal) (win0_0.fill (grid0.coords t) d0 (iblk m c 0 t)) (iblk m c 1 t) :=
  win0_2.fill_congr_cut (grid0.coords t)
    (cut_product t d0 (fun _ => (FloatOps.ofBits (F := Ideal) FTy.f32 0#32 : Ideal FTy.f32)) (iblk m c 0 t) (iblk m c 1 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel_named c Set.univ _ _ _ _ _ _ _ (win0_0.fill (grid0.coords t) d0 (iblk m c 0 t)) (iblk m c 1 t)
    (win0_2.fill (grid0.coords t) (tileProduct (F := Ideal) (win0_0.fill (grid0.coords t) d0 (iblk m c 0 t)) (iblk m c 1 t))
        (win0_2.cut (grid0.coords t) (yTile m c t)))
    (leaves_yTile m c t d0) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win0_0.cut (grid0.coords t) (xTile m c t) = iblk m c 0 t from win0_0.cut_fill _ _ _]
    iexact H0
  isplitl [H1]; · iexact H1
  iexists (tileProduct (F := Ideal) (win0_0.fill (grid0.coords t) d0 (iblk m c 0 t)) (iblk m c 1 t))
  iexact H2

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the program terminates without fault; the result array ends at what the
    write-backs of the output tiles make of it, and every other array as it was. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Data

end
-- ==== Proof.ResultI.lean ====
/-
  The result array of the idealized kernel is the grouped linear map of its arguments.

  Point t writes back rows 512·t … of the output tile; the tile's entry (n, k, d) is the sum over q of the input tile's
  (n, k, q), which is x (512·t + n, k, q), times the degree matrix (l(k), q, d) as the region finds it, which is
  W (l(k), q, d) · p (l(k)). So what point t writes back is block t of `out x W p`. The 98 blocks cover the 50000 rows
  (row r lies in block r / 512), so the array ends holding `out x W p`.
-/
import proofs.«118936_j30597347016799_1_alg».proof.Proof.DataI
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal.Tile Cert.KernelIdeal.Data Cert.GroupedLinear Idealize.ShloMosaic.ValueIdx Idealize.ShloMosaic.StableHlo

variable (m : (ℓ : Loc nD τ sig) → Buf (Elt Ideal) ℓ) (ρ : Dev nD → PrngReg)

/-! ## The three arguments, and the scaled matrices the region finds -/

abbrev argX (c : Dev nD) : S50000x16x128.Idx → EReal := m ((c : Thread nD τ).loc main_arg0)
abbrev argW (c : Dev nD) : S4x128x128.Idx → EReal := m ((c : Thread nD τ).loc main_arg1)
abbrev argP (c : Dev nD) : S4.Idx → EReal := m ((c : Thread nD τ).loc main_arg2)

/-- The matrices as the region finds them: W (l, q, d) · p (l). -/
theorem scaled (c : Dev nD) (l : Fin 4) (q d : Fin 128) :
    (V m c main_v3 : S4x128x128.Idx → EReal) (ix3 l q d) = argW m c (ix3 l q d) * argP m c (ix1 l) := by
  have e : (V m c main_v3 : S4x128x128.Idx → EReal)
      = truncf (F := Ideal) .bf16 (mulf (F := Ideal) (φ := .f32) (argW m c) (broadcastInDim S4x128x128 ![0, 1, 2] bcast_S4x1x1_S4x128x128_0_1_2
          (broadcastInDim S4x1x1 ![0] bcast_S4_S4x1x1_0 (argP m c)))) bitsLt_bf16_f32 := by
    dsimp only [Gen.V, Gen.hostOps0]; after_results
  rw [e]
  show argW m c (ix3 l q d) * _ = _
  congr 1
  rw [broadcastInDim_apply ![0, 1, 2] bcast_S4x1x1_S4x128x128_0_1_2 _ (ix3 l q d) (ix3 l 0 0) (fun a => by
        match a with
        | ⟨0, _⟩ => rfl
        | ⟨1, _⟩ => rfl
        | ⟨2, _⟩ => rfl),
    broadcastInDim_apply ![0] bcast_S4_S4x1x1_0 _ (ix3 l 0 0) (ix1 l) (fun a => by
        match a with
        | ⟨0, _⟩ => rfl)]

/-! ## The index maps, decided over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_2.xsize (grid0.coords t) (0 : Fin 3) = min 512 (50000 - 512 * t.val)
    ∧ win0_2.xsize (grid0.coords t) (1 : Fin 3) = 16 ∧ win0_2.xsize (grid0.coords t) (2 : Fin 3) = 128 :=
  (by decide +kernel : ∀ t : Fin grid0.N, _)

/-! ## The tiles at an entry -/

/-- The input tile at a moved entry is x at the tile's row offset. -/
theorem xTile_apply (c : Dev nD) (t : Fin cfg0.N) (n : Fin 512) (k : Fin 16) (q : Fin 128) (r : Fin 50000)
    (hn : n.val < win0_0.xsize (grid0.coords t) 0) (hr : r.val = 512 * t.val + n.val) :
    xTile m c t (ix3 n k q) = argX m c (ix3 r k q) := by
  have hmv : win0_0.moved (grid0.coords t) (ix3 n k q) = true := (win0_0.moved_iff _ _).mpr fun a => by
    match a with
    | ⟨0, _⟩ => exact hn
    | ⟨1, _⟩ => exact lt_of_lt_of_eq k.isLt (moved_cols t).1.symm
    | ⟨2, _⟩ => exact lt_of_lt_of_eq q.isLt (moved_cols t).2.symm
  unfold xTile Window.fill
  rw [dif_pos hmv]
  show V m c main_arg0 (((cfg0.win 0).blk t).view.emb _) = _
  rw [V_main_arg0]
  show argX m c _ = argX m c _
  congr 1
  obtain ⟨e0, e1, e2, -⟩ := idx_facts t
  funext a; apply Fin.ext
  match a with
  | ⟨0, _⟩ => show win0_0.index t (0 : Fin 3) * 512 + 1 * n.val = r.val; omega
  | ⟨1, _⟩ => show win0_0.index t (1 : Fin 3) * 16 + 1 * k.val = k.val; omega
  | ⟨2, _⟩ => show win0_0.index t (2 : Fin 3) * 128 + 1 * q.val = q.val; omega

/-- The degree matrices' tile is the whole array of scaled matrices. -/
theorem wTile_apply (c : Dev nD) (t : Fin cfg0.N) (l : Fin 4) (q d : Fin 128) :
    iblk m c 1 t (ix3 l q d) = argW m c (ix3 l q d) * argP m c (ix1 l) := by
  rw [← scaled m c l q d]
  show V m c main_v3 (((cfg0.win 1).blk t).view.emb (ix3 l q d)) = V m c main_v3 (ix3 l q d)
  congr 1
  obtain ⟨-, -, -, e0, e1, e2, -⟩ := idx_facts t
  funext a; apply Fin.ext
  match a with
  | ⟨0, _⟩ => show win0_1.index t (0 : Fin 3) * 4 + 1 * l.val = l.val; omega
  | ⟨1, _⟩ => show win0_1.index t (1 : Fin 3) * 128 + 1 * q.val = q.val; omega
  | ⟨2, _⟩ => show win0_1.index t (2 : Fin 3) * 128 + 1 * d.val = d.val; omega

/-- The output tile at a moved entry is the grouped linear map at the tile's row offset. -/
theorem yTile_apply (c : Dev nD) (t : Fin cfg0.N) (n : Fin 512) (k : Fin 16) (d : Fin 128) (r : Fin 50000)
    (hn : n.val < win0_0.xsize (grid0.coords t) 0) (hr : r.val = 512 * t.val + n.val) :
    yTile m c t (ix3 n k d) = out (argX m c) (argW m c) (argP m c) (ix3 r k d) := by
  unfold yTile
  rw [tileProduct_apply]
  show _ = ∑ q : Fin 128, argX m c (ix3 r k q) * (argW m c (ix3 (degree k) q d) * argP m c (ix1 (degree k)))
  exact Finset.sum_congr rfl fun q _ => by rw [xTile_apply m c t n k q r hn hr, wTile_apply]

/-! ## What a point writes back, and the cover -/

/-- What point t writes back is block t of the grouped linear map. -/
theorem flushed_eq (c : Dev nD) (t : Fin cfg0.N) :
    (dats m 0 c).flushed 2 t = ((cfg0.win 2).blk t).view.read (Elt Ideal) (out (argX m c) (argW m c) (argP m c)) := by
  show (cfg0.win 2).cut (grid0.coords t) ((dats m 0 c).after 2 t) = _
  rw [after2]
  have key : ∀ (J : S512x16x128.Idx) (I : S50000x16x128.Idx), (J 0).val < win0_0.xsize (grid0.coords t) 0 →
      (I 0).val = 512 * t.val + (J 0).val → (I 1).val = (J 1).val → (I 2).val = (J 2).val →
      yTile m c t J = out (argX m c) (argW m c) (argP m c) I := by
    intro J I h0 e0 e1 e2
    have h1 : (I 1 : Fin 16) = (J 1 : Fin 16) := Fin.ext e1
    have h2 : (I 2 : Fin 128) = (J 2 : Fin 128) := Fin.ext e2
    rw [eq_ix3 J, eq_ix3 I, h1, h2]
    exact yTile_apply m c t (J 0) (J 1) (J 2) (I 0) h0 e0
  obtain ⟨-, -, -, -, -, -, e0, e1, e2, -⟩ := idx_facts t
  funext j
  refine key (win0_2.xinj (grid0.coords t) j) (((cfg0.win 2).blk t).view.emb j) (j 0).isLt ?_ ?_ ?_
  · show win0_2.index t (0 : Fin 3) * 512 + 1 * (j 0).val = 512 * t.val + (j 0).val; omega
  · show win0_2.index t (1 : Fin 3) * 16 + 1 * (j 1).val = (j 1).val; omega
  · show win0_2.index t (2 : Fin 3) * 128 + 1 * (j 2).val = (j 2).val; omega

/-- An index of the result array is in point t's block iff each coordinate is in the block's range, cut at the array's end. -/
theorem mem_blk (t : Fin cfg0.N) (i : S50000x16x128.Idx) :
    i ∈ ((cfg0.win 2).blk t).view.set ↔ ∀ a : Fin 3, win0_2.index t a * S512x16x128.size a ≤ (i a).val
      ∧ (i a).val < win0_2.index t a * S512x16x128.size a + win0_2.xsize (grid0.coords t) a := by
  show i ∈ ((View.whole main_v4).slice (win0_2.rect t)).set ↔ _
  rw [View.set_slice_whole, Rect.mem_set_unit]
  exact Iff.rfl

/-- Every row of the result array lies in the block of the point its row number divided by 512 names. -/
theorem cover (i : S50000x16x128.Idx) :
    ∃ t : Fin cfg0.N, (cfg0.win 2).flush t = true ∧ i ∈ ((cfg0.win 2).blk t).view.set := by
  have hi0 : (i 0).val < 50000 := (i 0).isLt
  have hi1 : (i 1).val < 16 := (i 1).isLt
  have hi2 : (i 2).val < 128 := (i 2).isLt
  refine ⟨⟨(i 0).val / 512, by show (i 0).val / 512 < 98; omega⟩, flush0_2 _, ?_⟩
  rw [mem_blk]
  obtain ⟨-, -, -, -, -, -, e0, e1, e2, s0, s1, s2⟩ := idx_facts ⟨(i 0).val / 512, by show (i 0).val / 512 < 98; omega⟩
  intro a
  match a with
  | ⟨0, _⟩ =>
    show win0_2.index _ (0 : Fin 3) * 512 ≤ (i 0).val ∧ (i 0).val < win0_2.index _ (0 : Fin 3) * 512 + win0_2.xsize _ (0 : Fin 3)
    rw [e0, s0]; show (i 0).val / 512 * 512 ≤ (i 0).val ∧ (i 0).val < (i 0).val / 512 * 512 + min 512 (50000 - 512 * ((i 0).val / 512)); omega
  | ⟨1, _⟩ =>
    show win0_2.index _ (1 : Fin 3) * 16 ≤ (i 1).val ∧ (i 1).val < win0_2.index _ (1 : Fin 3) * 16 + win0_2.xsize _ (1 : Fin 3)
    rw [e1, s1]; omega
  | ⟨2, _⟩ =>
    show win0_2.index _ (2 : Fin 3) * 128 ≤ (i 2).val ∧ (i 2).val < win0_2.index _ (2 : Fin 3) * 128 + win0_2.xsize _ (2 : Fin 3)
    rw [e2, s2]; omega

/-- The result array after the last write-back. -/
theorem final (c : Dev nD) : (dats m 0 c).arrAt 2 cfg0.N = out (argX m c) (argW m c) (argP m c) :=
  (dats m 0 c).arrAt_eq_of_cover 2 (out (argX m c) (argW m c) (argP m c)) (fun t _ => flushed_eq m c t) cover

/-! ## The run, read -/

/-- Every weakly fair execution terminates without fault, with the result array at the grouped linear map of the
    arguments and the arguments unchanged. -/
theorem run : θ_run defs (onTc (τ := τ) (main (F := Ideal))) ⟨m, fun _ => 0, ρ⟩ fun r => ∀ c : Dev nD,
      r.2.mem ((c.tc : Thread nD τ).loc main_v4) = out (argX m c) (argW m c) (argP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Result

end
-- ==== Proof.RefValue.lean ====
/-
  The reference computes the grouped linear map.
-/
import proofs.«118936_j30597347016799_1_alg».proof.Defs
import proofs.«118936_j30597347016799_1_alg».proof.Proof.Gen.ReferenceIdeal.Run
import proofs.«118936_j30597347016799_1_alg».proof.Proof.Gen.ReferenceIdeal.Read
import proofs.«118936_j30597347016799_1_alg».proof.Proof.Spec
import proofs.«118936_j30597347016799_1_alg».proof.Proof.LibDotPlain
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.GroupedLinear
open Idealize.ShloMosaic Idealize.ShloMosaic.TcCoe Idealize.ShloMosaic.ValueIdx

open Cert.ReferenceIdeal.Read

/-! ## The four degrees, one at a time

Degree l owns the 2l + 1 rows from l² on. Its block of the reference is p (l) · ∑ q, x (n, l² + m, q) · W (l, q, d) at
(n, m, d), m < 2l + 1: the path weight is read through a one-element slice made a scalar and spread over the block, the
matrix through a one-matrix slice made 128 × 128, and x through the slice of rows l² … l² + 2l. Moving p (l) into the
sum, behind W's entry, is the one step that uses that every number involved is a real. -/

/-- The path weight of degree 0, read as a scalar, is p (0). -/
theorem scalar0 (p : (⟨S4, .f32⟩ : BufTy).Contents (Elt Ideal)) (j : S_.Idx) :
    val_main_v5 (F := Ideal) p j = p (ix1 (0 : Fin 4)) := by
  unfold val_main_v5
  rw [shapeCast_apply (val_main_v4 (F := Ideal) p) shapeCasts_S1_S_ j (ix1 (0 : Fin 1))
    (by rw [Shape.rowMajor_val_one]; exact (Shape.rowMajorPi_zero _ _).symm), val_main_v4_apply]
  exact congrArg p (funext fun a => match a with | ⟨0, _⟩ => rfl)

/-- Row m of degree 0's slice of x, at channel q, is row 0 + m of x. -/
theorem lrow0 (n : Fin 50000) (k : Fin 16) (d : Fin 128) (m : Fin 1) (hm : 0 + m.val = k.val) (q : Fin 128) :
    idx_main_v0 (lidx_main_v3 (ix3 n m d) q) = ix3 n k q :=
  funext fun a => match a with
    | ⟨0, _⟩ => rfl
    | ⟨1, _⟩ => Fin.ext ((Nat.zero_add _).symm.trans hm)
    | ⟨2, _⟩ => rfl

/-- Entry (q, d) of degree 0's 128 × 128 matrix is W (0, q, d). -/
theorem rmat0 (n : Fin 50000) (d : Fin 128) (m : Fin 1) (q : Fin 128) :
    idx_main_v1 (idx_main_v2 (ridx_main_v3 (ix3 n m d) q)) = ix3 (0 : Fin 4) q d :=
  funext fun a => match a with
    | ⟨0, _⟩ => rfl
    | ⟨1, _⟩ => Fin.ext (by
        have hq := q.isLt; have hd := d.isLt
        show (q.val * 128 + d.val) / 128 % 128 = q.val; omega)
    | ⟨2, _⟩ => Fin.ext (by
        have hq := q.isLt; have hd := d.isLt
        show (q.val * 128 + d.val) % 128 = d.val; omega)

/-- Degree 0's block at (n, m, d) is ∑ q, x (n, k, q) · (W (0, q, d) · p (0)), where k = 0 + m. -/
theorem piece0 (x : (⟨S50000x16x128, .f32⟩ : BufTy).Contents (Elt Ideal))
    (W : (⟨S4x128x128, .f32⟩ : BufTy).Contents (Elt Ideal)) (p : (⟨S4, .f32⟩ : BufTy).Contents (Elt Ideal))
    (hx : ∀ i, IsReal (x i)) (hW : ∀ i, IsReal (W i)) (hp : ∀ i, IsReal (p i))
    (n : Fin 50000) (k : Fin 16) (d : Fin 128) (m : Fin 1) (hm : 0 + m.val = k.val) :
    val_main_v7 (F := Ideal) x W p (ix3 n m d)
      = ∑ q : Fin 128, x (ix3 n k q) * (W (ix3 (0 : Fin 4) q d) * p (ix1 (0 : Fin 4))) := by
  have hs : ∀ q : Fin 128, val_main_v0 (F := Ideal) x (lidx_main_v3 (ix3 n m d) q)
      * val_main_v2 (F := Ideal) W (ridx_main_v3 (ix3 n m d) q) = x (ix3 n k q) * W (ix3 (0 : Fin 4) q d) := fun q => by
    rw [val_main_v0_apply, val_main_v2_apply, val_main_v1_apply, lrow0 n k d m hm q, rmat0 n d m q]
  rw [val_main_v7_apply, val_main_v6_apply, val_main_v3_apply, scalar0, Ideal.mulf_def,
    Finset.sum_congr rfl fun q _ => hs q]
  exact scale_sum Finset.univ _ _ _ (hp _) (fun q => hx _) (fun q => hW _)

/-- Row k = 0 + m of the four blocks laid one after another along the row axis is row m of degree 0's block:
    no block comes before it. -/
theorem cat0 (x : (⟨S50000x16x128, .f32⟩ : BufTy).Contents (Elt Ideal))
    (W : (⟨S4x128x128, .f32⟩ : BufTy).Contents (Elt Ideal)) (p : (⟨S4, .f32⟩ : BufTy).Contents (Elt Ideal))
    (n : Fin 50000) (k : Fin 16) (d : Fin 128) (m : Fin 1) (hm : 0 + m.val = k.val) :
    val_main_v32 (F := Ideal) x W p (ix3 n k d) = val_main_v7 (F := Ideal) x W p (ix3 n m d) := by
  unfold val_main_v32
  exact concatenate_apply_piece (1 : Fin S50000x16x128.rank) _ _ (ix3 n k d) 0 (by show (0 : Nat) < 4; omega)
    S50000x1x128 (val_main_v7 (F := Ideal) x W p) rfl rfl 0 rfl (ix3 n m d)
    (fun b hb => match b with
      | ⟨0, _⟩ => rfl
      | ⟨1, _⟩ => absurd rfl hb
      | ⟨2, _⟩ => rfl)
    hm

/-- The path weight of degree 1, read as a scalar, is p (1). -/
theorem scalar1 (p : (⟨S4, .f32⟩ : BufTy).Contents (Elt Ideal)) (j : S_.Idx) :
    val_main_v13 (F := Ideal) p j = p (ix1 (1 : Fin 4)) := by
  unfold val_main_v13
  rw [shapeCast_apply (val_main_v12 (F := Ideal) p) shapeCasts_S1_S_ j (ix1 (0 : Fin 1))
    (by rw [Shape.rowMajor_val_one]; exact (Shape.rowMajorPi_zero _ _).symm), val_main_v12_apply]
  exact congrArg p (funext fun a => match a with | ⟨0, _⟩ => rfl)

/-- Row m of degree 1's slice of x, at channel q, is row 1 + m of x. -/
theorem lrow1 (n : Fin 50000) (k : Fin 16) (d : Fin 128) (m : Fin 3) (hm : 1 + m.val = k.val) (q : Fin 128) :
    idx_main_v8 (lidx_main_v11 (ix3 n m d) q) = ix3 n k q :=
  funext fun a => match a with
    | ⟨0, _⟩ => rfl
    | ⟨1, _⟩ => Fin.ext hm
    | ⟨2, _⟩ => rfl

/-- Entry (q, d) of degree 1's 128 × 128 matrix is W (1, q, d). -/
theorem rmat1 (n : Fin 50000) (d : Fin 128) (m : Fin 3) (q : Fin 128) :
    idx_main_v9 (idx_main_v10 (ridx_main_v11 (ix3 n m d) q)) = ix3 (1 : Fin 4) q d :=
  funext fun a => match a with
    | ⟨0, _⟩ => rfl
    | ⟨1, _⟩ => Fin.ext (by
        have hq := q.isLt; have hd := d.isLt
        show (q.val * 128 + d.val) / 128 % 128 = q.val; omega)
    | ⟨2, _⟩ => Fin.ext (by
        have hq := q.isLt; have hd := d.isLt
        show (q.val * 128 + d.val) % 128 = d.val; omega)

/-- Degree 1's block at (n, m, d) is ∑ q, x (n, k, q) · (W (1, q, d) · p (1)), where k = 1 + m. -/
theorem piece1 (x : (⟨S50000x16x128, .f32⟩ : BufTy).Contents (Elt Ideal))
    (W : (⟨S4x128x128, .f32⟩ : BufTy).Contents (Elt Ideal)) (p : (⟨S4, .f32⟩ : BufTy).Contents (Elt Ideal))
    (hx : ∀ i, IsReal (x i)) (hW : ∀ i, IsReal (W i)) (hp : ∀ i, IsReal (p i))
    (n : Fin 50000) (k : Fin 16) (d : Fin 128) (m : Fin 3) (hm : 1 + m.val = k.val) :
    val_main_v15 (F := Ideal) x W p (ix3 n m d)
      = ∑ q : Fin 128, x (ix3 n k q) * (W (ix3 (1 : Fin 4) q d) * p (ix1 (1 : Fin 4))) := by
  have hs : ∀ q : Fin 128, val_main_v8 (F := Ideal) x (lidx_main_v11 (ix3 n m d) q)
      * val_main_v10 (F := Ideal) W (ridx_main_v11 (ix3 n m d) q) = x (ix3 n k q) * W (ix3 (1 : Fin 4) q d) := fun q => by
    rw [val_main_v8_apply, val_main_v10_apply, val_main_v9_apply, lrow1 n k d m hm q, rmat1 n d m q]
  rw [val_main_v15_apply, val_main_v14_apply, val_main_v11_apply, scalar1, Ideal.mulf_def,
    Finset.sum_congr rfl fun q _ => hs q]
  exact scale_sum Finset.univ _ _ _ (hp _) (fun q => hx _) (fun q => hW _)

/-- Row k = 1 + m of the four blocks laid one after another along the row axis is row m of degree 1's block:
    the blocks before it have 1 rows between them. -/
theorem cat1 (x : (⟨S50000x16x128, .f32⟩ : BufTy).Contents (Elt Ideal))
    (W : (⟨S4x128x128, .f32⟩ : BufTy).Contents (Elt Ideal)) (p : (⟨S4, .f32⟩ : BufTy).Contents (Elt Ideal))
    (n : Fin 50000) (k : Fin 16) (d : Fin 128) (m : Fin 3) (hm : 1 + m.val = k.val) :
    val_main_v32 (F := Ideal) x W p (ix3 n k d) = val_main_v15 (F := Ideal) x W p (ix3 n m d) := by
  unfold val_main_v32
  exact concatenate_apply_piece (1 : Fin S50000x16x128.rank) _ _ (ix3 n k d) 1 (by show (1 : Nat) < 4; omega)
    S50000x3x128 (val_main_v15 (F := Ideal) x W p) rfl rfl 1 rfl (ix3 n m d)
    (fun b hb => match b with
      | ⟨0, _⟩ => rfl
      | ⟨1, _⟩ => absurd rfl hb
      | ⟨2, _⟩ => rfl)
    hm

/-- The path weight of degree 2, read as a scalar, is p (2). -/
theorem scalar2 (p : (⟨S4, .f32⟩ : BufTy).Contents (Elt Ideal)) (j : S_.Idx) :
    val_main_v21 (F := Ideal) p j = p (ix1 (2 : Fin 4)) := by
  unfold val_main_v21
  rw [shapeCast_apply (val_main_v20 (F := Ideal) p) shapeCasts_S1_S_ j (ix1 (0 : Fin 1))
    (by rw [Shape.rowMajor_val_one]; exact (Shape.rowMajorPi_zero _ _).symm), val_main_v20_apply]
  exact congrArg p (funext fun a => match a with | ⟨0, _⟩ => rfl)

/-- Row m of degree 2's slice of x, at channel q, is row 4 + m of x. -/
theorem lrow2 (n : Fin 50000) (k : Fin 16) (d : Fin 128) (m : Fin 5) (hm : 4 + m.val = k.val) (q : Fin 128) :
    idx_main_v16 (lidx_main_v19 (ix3 n m d) q) = ix3 n k q :=
  funext fun a => match a with
    | ⟨0, _⟩ => rfl
    | ⟨1, _⟩ => Fin.ext hm
    | ⟨2, _⟩ => rfl

/-- Entry (q, d) of degree 2's 128 × 128 matrix is W (2, q, d). -/
theorem rmat2 (n : Fin 50000) (d : Fin 128) (m : Fin 5) (q : Fin 128) :
    idx_main_v17 (idx_main_v18 (ridx_main_v19 (ix3 n m d) q)) = ix3 (2 : Fin 4) q d :=
  funext fun a => match a with
    | ⟨0, _⟩ => rfl
    | ⟨1, _⟩ => Fin.ext (by
        have hq := q.isLt; have hd := d.isLt
        show (q.val * 128 + d.val) / 128 % 128 = q.val; omega)
    | ⟨2, _⟩ => Fin.ext (by
        have hq := q.isLt; have hd := d.isLt
        show (q.val * 128 + d.val) % 128 = d.val; omega)

/-- Degree 2's block at (n, m, d) is ∑ q, x (n, k, q) · (W (2, q, d) · p (2)), where k = 4 + m. -/
theorem piece2 (x : (⟨S50000x16x128, .f32⟩ : BufTy).Contents (Elt Ideal))
    (W : (⟨S4x128x128, .f32⟩ : BufTy).Contents (Elt Ideal)) (p : (⟨S4, .f32⟩ : BufTy).Contents (Elt Ideal))
    (hx : ∀ i, IsReal (x i)) (hW : ∀ i, IsReal (W i)) (hp : ∀ i, IsReal (p i))
    (n : Fin 50000) (k : Fin 16) (d : Fin 128) (m : Fin 5) (hm : 4 + m.val = k.val) :
    val_main_v23 (F := Ideal) x W p (ix3 n m d)
      = ∑ q : Fin 128, x (ix3 n k q) * (W (ix3 (2 : Fin 4) q d) * p (ix1 (2 : Fin 4))) := by
  have hs : ∀ q : Fin 128, val_main_v16 (F := Ideal) x (lidx_main_v19 (ix3 n m d) q)
      * val_main_v18 (F := Ideal) W (ridx_main_v19 (ix3 n m d) q) = x (ix3 n k q) * W (ix3 (2 : Fin 4) q d) := fun q => by
    rw [val_main_v16_apply, val_main_v18_apply, val_main_v17_apply, lrow2 n k d m hm q, rmat2 n d m q]
  rw [val_main_v23_apply, val_main_v22_apply, val_main_v19_apply, scalar2, Ideal.mulf_def,
    Finset.sum_congr rfl fun q _ => hs q]
  exact scale_sum Finset.univ _ _ _ (hp _) (fun q => hx _) (fun q => hW _)

/-- Row k = 4 + m of the four blocks laid one after another along the row axis is row m of degree 2's block:
    the blocks before it have 4 rows between them. -/
theorem cat2 (x : (⟨S50000x16x128, .f32⟩ : BufTy).Contents (Elt Ideal))
    (W : (⟨S4x128x128, .f32⟩ : BufTy).Contents (Elt Ideal)) (p : (⟨S4, .f32⟩ : BufTy).Contents (Elt Ideal))
    (n : Fin 50000) (k : Fin 16) (d : Fin 128) (m : Fin 5) (hm : 4 + m.val = k.val) :
    val_main_v32 (F := Ideal) x W p (ix3 n k d) = val_main_v23 (F := Ideal) x W p (ix3 n m d) := by
  unfold val_main_v32
  exact concatenate_apply_piece (1 : Fin S50000x16x128.rank) _ _ (ix3 n k d) 2 (by show (2 : Nat) < 4; omega)
    S50000x5x128 (val_main_v23 (F := Ideal) x W p) rfl rfl 4 rfl (ix3 n m d)
    (fun b hb => match b with
      | ⟨0, _⟩ => rfl
      | ⟨1, _⟩ => absurd rfl hb
      | ⟨2, _⟩ => rfl)
    hm

/-- The path weight of degree 3, read as a scalar, is p (3). -/
theorem scalar3 (p : (⟨S4, .f32⟩ : BufTy).Contents (Elt Ideal)) (j : S_.Idx) :
    val_main_v29 (F := Ideal) p j = p (ix1 (3 : Fin 4)) := by
  unfold val_main_v29
  rw [shapeCast_apply (val_main_v28 (F := Ideal) p) shapeCasts_S1_S_ j (ix1 (0 : Fin 1))
    (by rw [Shape.rowMajor_val_one]; exact (Shape.rowMajorPi_zero _ _).symm), val_main_v28_apply]
  exact congrArg p (funext fun a => match a with | ⟨0, _⟩ => rfl)

/-- Row m of degree 3's slice of x, at channel q, is row 9 + m of x. -/
theorem lrow3 (n : Fin 50000) (k : Fin 16) (d : Fin 128) (m : Fin 7) (hm : 9 + m.val = k.val) (q : Fin 128) :
    idx_main_v24 (lidx_main_v27 (ix3 n m d) q) = ix3 n k q :=
  funext fun a => match a with
    | ⟨0, _⟩ => rfl
    | ⟨1, _⟩ => Fin.ext hm
    | ⟨2, _⟩ => rfl

/-- Entry (q, d) of degree 3's 128 × 128 matrix is W (3, q, d). -/
theorem rmat3 (n : Fin 50000) (d : Fin 128) (m : Fin 7) (q : Fin 128) :
    idx_main_v25 (idx_main_v26 (ridx_main_v27 (ix3 n m d) q)) = ix3 (3 : Fin 4) q d :=
  funext fun a => match a with
    | ⟨0, _⟩ => rfl
    | ⟨1, _⟩ => Fin.ext (by
        have hq := q.isLt; have hd := d.isLt
        show (q.val * 128 + d.val) / 128 % 128 = q.val; omega)
    | ⟨2, _⟩ => Fin.ext (by
        have hq := q.isLt; have hd := d.isLt
        show (q.val * 128 + d.val) % 128 = d.val; omega)

/-- Degree 3's block at (n, m, d) is ∑ q, x (n, k, q) · (W (3, q, d) · p (3)), where k = 9 + m. -/
theorem piece3 (x : (⟨S50000x16x128, .f32⟩ : BufTy).Contents (Elt Ideal))
    (W : (⟨S4x128x128, .f32⟩ : BufTy).Contents (Elt Ideal)) (p : (⟨S4, .f32⟩ : BufTy).Contents (Elt Ideal))
    (hx : ∀ i, IsReal (x i)) (hW : ∀ i, IsReal (W i)) (hp : ∀ i, IsReal (p i))
    (n : Fin 50000) (k : Fin 16) (d : Fin 128) (m : Fin 7) (hm : 9 + m.val = k.val) :
    val_main_v31 (F := Ideal) x W p (ix3 n m d)
      = ∑ q : Fin 128, x (ix3 n k q) * (W (ix3 (3 : Fin 4) q d) * p (ix1 (3 : Fin 4))) := by
  have hs : ∀ q : Fin 128, val_main_v24 (F := Ideal) x (lidx_main_v27 (ix3 n m d) q)
      * val_main_v26 (F := Ideal) W (ridx_main_v27 (ix3 n m d) q) = x (ix3 n k q) * W (ix3 (3 : Fin 4) q d) := fun q => by
    rw [val_main_v24_apply, val_main_v26_apply, val_main_v25_apply, lrow3 n k d m hm q, rmat3 n d m q]
  rw [val_main_v31_apply, val_main_v30_apply, val_main_v27_apply, scalar3, Ideal.mulf_def,
    Finset.sum_congr rfl fun q _ => hs q]
  exact scale_sum Finset.univ _ _ _ (hp _) (fun q => hx _) (fun q => hW _)

/-- Row k = 9 + m of the four blocks laid one after another along the row axis is row m of degree 3's block:
    the blocks before it have 9 rows between them. -/
theorem cat3 (x : (⟨S50000x16x128, .f32⟩ : BufTy).Contents (Elt Ideal))
    (W : (⟨S4x128x128, .f32⟩ : BufTy).Contents (Elt Ideal)) (p : (⟨S4, .f32⟩ : BufTy).Contents (Elt Ideal))
    (n : Fin 50000) (k : Fin 16) (d : Fin 128) (m : Fin 7) (hm : 9 + m.val = k.val) :
    val_main_v32 (F := Ideal) x W p (ix3 n k d) = val_main_v31 (F := Ideal) x W p (ix3 n m d) := by
  unfold val_main_v32
  exact concatenate_apply_piece (1 : Fin S50000x16x128.rank) _ _ (ix3 n k d) 3 (by show (3 : Nat) < 4; omega)
    S50000x7x128 (val_main_v31 (F := Ideal) x W p) rfl rfl 9 rfl (ix3 n m d)
    (fun b hb => match b with
      | ⟨0, _⟩ => rfl
      | ⟨1, _⟩ => absurd rfl hb
      | ⟨2, _⟩ => rfl)
    hm

/-! ## The assembly -/

/-- When every entry of x, W and p is a real, the reference's result is `out x W p`. -/
theorem reference_is_out (x : (⟨S50000x16x128, .f32⟩ : BufTy).Contents (Elt Ideal))
    (W : (⟨S4x128x128, .f32⟩ : BufTy).Contents (Elt Ideal)) (p : (⟨S4, .f32⟩ : BufTy).Contents (Elt Ideal))
    (hx : ∀ i, IsReal (x i)) (hW : ∀ i, IsReal (W i)) (hp : ∀ i, IsReal (p i)) :
    Cert.ReferenceIdeal.Read.val_main_v32 (F := Ideal) x W p = Cert.GroupedLinear.out x W p := by
  funext i
  obtain ⟨n, k, d, rfl⟩ : ∃ n k d, i = ix3 n k d := ⟨i 0, i 1, i 2, eq_ix3 i⟩
  show val_main_v32 (F := Ideal) x W p (ix3 n k d)
    = ∑ q : Fin 128, x (ix3 n k q) * (W (ix3 (degree k) q d) * p (ix1 (degree k)))
  have hk := k.isLt
  by_cases h1 : k.val < 1
  · have hdeg : degree k = 0 := by unfold degree; rw [if_pos h1]
    have hm : 0 + (⟨k.val - 0, by omega⟩ : Fin 1).val = k.val := by show 0 + (k.val - 0) = k.val; omega
    rw [hdeg, cat0 x W p n k d _ hm]
    exact piece0 x W p hx hW hp n k d _ hm
  by_cases h4 : k.val < 4
  · have hdeg : degree k = 1 := by unfold degree; rw [if_neg h1, if_pos h4]
    have hm : 1 + (⟨k.val - 1, by omega⟩ : Fin 3).val = k.val := by show 1 + (k.val - 1) = k.val; omega
    rw [hdeg, cat1 x W p n k d _ hm]
    exact piece1 x W p hx hW hp n k d _ hm
  by_cases h9 : k.val < 9
  · have hdeg : degree k = 2 := by unfold degree; rw [if_neg h1, if_neg h4, if_pos h9]
    have hm : 4 + (⟨k.val - 4, by omega⟩ : Fin 5).val = k.val := by show 4 + (k.val - 4) = k.val; omega
    rw [hdeg, cat2 x W p n k d _ hm]
    exact piece2 x W p hx hW hp n k d _ hm
  · have hdeg : degree k = 3 := by unfold degree; rw [if_neg h1, if_neg h4, if_neg h9]
    have hm : 9 + (⟨k.val - 9, by omega⟩ : Fin 7).val = k.val := by show 9 + (k.val - 9) = k.val; omega
    rw [hdeg, cat3 x W p n k d _ hm]
    exact piece3 x W p hx hW hp n k d _ hm

end Cert.ReferenceIdeal.RefValue

end
-- ==== Proof.Finite.lean ====
/-
  Finite inputs are real numbers.
-/
import proofs.«118936_j30597347016799_1_alg».proof.Pre_finite_inputs
import proofs.«118936_j30597347016799_1_alg».proof.Proof.Spec
import Idealize.ShloMosaic.Lib.ReduceAll
import Idealize.ShloMosaic.Lib.ValueIdx
import Idealize.ShloMosaic.PureOps.Ideal.Laws

noncomputable section

namespace Cert.FiniteInputs

open Cert.GroupedLinear
open Idealize.ShloMosaic

/-- The single-precision pattern with all exponent bits set, a clear sign and a zero significand denotes +∞. -/
theorem inf_bits : Ideal.ofBits .f32 0x7F800000#32 = (⊤ : EReal) := by
  simp [Ideal.ofBits, Ideal.ieee]

/-- An extended real a with |a| = max a (-a) strictly below +∞ is a real: at a = -∞ and at a = +∞ the absolute value
    is +∞, which is not strictly below itself. -/
theorem isReal_of_abs_lt_inf (a : Ideal .f32)
    (h : FloatOps.cmpf .olt (FloatOps.hostAbsf a) (Ideal.ofBits .f32 0x7F800000#32) = 1#1) : IsReal a := by
  rw [inf_bits, Ideal.hostAbsf_def, Ideal.cmpf_def, Ideal.absf_def] at h
  induction a using EReal.rec with
  | bot => exfalso; simp [Ideal.cmp] at h
  | top => exfalso; simp [Ideal.cmp] at h
  | coe r => exact ⟨r, rfl⟩

/-- The rank-0 shape has exactly one index. -/
instance subsingleton_scalar_idx : Subsingleton Cert.Pre_finite_inputs.S_.Idx := ⟨fun a b => funext fun d => d.elim0⟩

variable [Cert.Pre_finite_inputs.Facts]

/-- If the finiteness predicate of the three inputs is all ones, every entry of each input is a real number. -/
theorem reals_of_finite (x : FVec Ideal Cert.Pre_finite_inputs.S50000x16x128 .f32)
    (W : FVec Ideal Cert.Pre_finite_inputs.S4x128x128 .f32) (p : FVec Ideal Cert.Pre_finite_inputs.S4 .f32)
    (h : Cert.Pre_finite_inputs.fn (F := Ideal) x W p = fun _ => 1#1) :
    (∀ i, IsReal (x i)) ∧ (∀ i, IsReal (W i)) ∧ (∀ i, IsReal (p i)) := by
  -- The predicate at its one index is the conjunction of three conjunctions over all entries, one per input.
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  -- A conjunction over all entries that is 1 has a 1 at every entry: |a| < +∞ there, so the entry is a real.
  refine ⟨fun i => ?_, fun i => ?_, fun i => ?_⟩
  · exact isReal_of_abs_lt_inf (x i) (Host.reduce_andi_all _ _ _ _ _ h1 i)
  · exact isReal_of_abs_lt_inf (W i) (Host.reduce_andi_all _ _ _ _ _ h2 i)
  · exact isReal_of_abs_lt_inf (p i) (Host.reduce_andi_all _ _ _ _ _ h3 i)

end Cert.FiniteInputs

end
-- ==== Proof.lean ====
/-
  The certificate of the grouped linear map: for each of the 50000 nodes and each of its 16 spherical-harmonic rows, the
  128 channels of the row are multiplied by the 128 × 128 matrix of the row's degree, scaled by the degree's path weight.

  The kernel scales the four matrices by the path weights on the host, then, tile by tile (512 nodes at a time, the
  last tile 336), multiplies every row by its degree's scaled matrix. The reference multiplies the unscaled matrices,
  degree by degree, scales each product by the path weight, and joins the four groups of rows.

  • Both kernels (read at the word level and over the extended reals) and the reference run to their end without fault
    and leave the three arguments unchanged.
  • The idealization rewrote nothing, so there is nothing to preserve.
  • Over the extended reals, with all inputs finite, the two results are equal entry by entry: both are
    ∑ q, x (n, m, q) · (W (l(m), q, d) · p (l(m))); the kernel computes this sum as it stands, and the reference's
    p (l) · ∑ q, x (n, m, q) · W (l, q, d) equals it because among reals a factor may be moved inside a sum.
-/
import proofs.«118936_j30597347016799_1_alg».proof.Defs
import proofs.«118936_j30597347016799_1_alg».proof.Proof.Gen.Kernel
import proofs.«118936_j30597347016799_1_alg».proof.Proof.Gen.KernelIdeal
import proofs.«118936_j30597347016799_1_alg».proof.Proof.Gen.ReferenceIdeal
import proofs.«118936_j30597347016799_1_alg».proof.Proof.Gen.ReferenceIdeal.Run
import proofs.«118936_j30597347016799_1_alg».proof.Proof.Gen.ReferenceIdeal.Read
import proofs.«118936_j30597347016799_1_alg».proof.Proof.Gen.Pre_finite_inputs
import proofs.«118936_j30597347016799_1_alg».proof.Proof.FrameK
import proofs.«118936_j30597347016799_1_alg».proof.Proof.ResultI
import proofs.«118936_j30597347016799_1_alg».proof.Proof.RefValue
import proofs.«118936_j30597347016799_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Data.frame (F := Bits) m ρ

/-- The idealized kernel runs and leaves its arguments unchanged: its run with the result dropped. -/
theorem frame_kernelIdeal : Cert.frame_KernelIdeal := fun m ρ _ =>
  (θ_run Cert.KernelIdeal.defs _ _).mono (fun _ h c => (h c).2) (Cert.KernelIdeal.Result.run m ρ)

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, all finite, both programs end with the grouped linear map of the
    arguments in their result arrays. -/
theorem algebraic : Cert.algebraic_KernelIdeal_ReferenceIdeal := by
  intro m ρ m' ρ' hpre hagree
  refine ⟨fun c => Cert.GroupedLinear.out (Cert.KernelIdeal.Result.argX m c) (Cert.KernelIdeal.Result.argW m c)
    (Cert.KernelIdeal.Result.argP m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hx, hW, hp⟩ := Cert.FiniteInputs.reals_of_finite _ _ _ (hpre c)
  exact (Cert.ReferenceIdeal.Read.val_main_v32_eq _ _ _).trans
    (Cert.ReferenceIdeal.RefValue.reference_is_out _ _ _ hx hW hp)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
